-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192 : Shape := ⟨1, ![8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16x8192 .f32) (main_arg1 : FVec F S8192x8192 .f32) (main_arg2 : FVec F S8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S16x8192 : Shape := ⟨2, ![16, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S1x8192 : Shape := ⟨2, ![1, 8192]⟩
abbrev S16x2048 : Shape := ⟨2, ![16, 2048]⟩
abbrev S1024x2048 : Shape := ⟨2, ![1024, 2048]⟩
abbrev S1024x1 : Shape := ⟨2, ![1024, 1]⟩
abbrev S1x1024 : Shape := ⟨2, ![1, 1024]⟩
abbrev S16x1024 : Shape := ⟨2, ![16, 1024]⟩

abbrev nBuf : Space → Nat
  | .hbm => 26
  | .vmem => 15
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x8192, .f32⟩
  | .hbm, ⟨17, _⟩ => ⟨S16x8192, .f32⟩
  | .hbm, ⟨18, _⟩ => ⟨S_, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S16x8192, .f32⟩
  | .hbm, ⟨23, _⟩ => ⟨S8192x1, .f32⟩
  | .hbm, ⟨24, _⟩ => ⟨S1x8192, .f32⟩
  | .hbm, ⟨25, _⟩ => ⟨S16x8192, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S16x2048, .f32⟩
  | .local _ .vmem, ⟨5, _⟩ => ⟨S16x2048, .f32⟩
  | .local _ .vmem, ⟨6, _⟩ => ⟨S1024x2048, .f32⟩
  | .local _ .vmem, ⟨7, _⟩ => ⟨S1024x2048, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_12 : BitVec 32 := 0#32
  let v27 : BitVec 1 := Scalar.cmpi .ne v26 c0_i32_12
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S16x8192_S_d0_1 : S16x8192.ReducesTo [0, 1] S_
  h_S_ : 0 < S_.numel
  bcast_S_S16x8192 : S_.BroadcastsInDim S16x8192 (![] : Fin 0 → Fin S16x8192.rank)
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S8192_S1x8192 : S8192.ShapeCasts S1x8192
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S16x1024 : S1x1024.Broadcasts S16x1024
  dot_S16x2048_S1024x2048_S16x1024_1_1_0_0_n_n_wf : DotDims.WF S16x2048 S1024x2048 S16x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x8192.size a
  hwx1_0 : ∀ i : grid1.Coords, EltTy.bits .f32 = 32 ∨ (Rect.block (s := S16x8192) S16x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x8192.size a
  hwx1_1 : ∀ i : grid1.Coords, EltTy.bits .f32 = 32 ∨ (Rect.block (s := S8192x8192) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x1024.size a ≤ S16x8192.size a
  hwx1_4 : ∀ i : grid1.Coords, EltTy.bits .f32 = 32 ∨ (Rect.block (s := S16x8192) S16x1024.size (cc1_transform_4 i) (hinb1_4 i)).WholeWords (EltTy.packing .f32)

variable [Facts₀]

def dot_S16x2048_S1024x2048_S16x1024_1_1_0_0_n_n : DotDims S16x2048 S1024x2048 S16x1024 where
  lhsContracting := [1]
  rhsContracting := [1]
  lhsNonContracting := [0]
  rhsNonContracting := [0]
  lhsBatch := []
  rhsBatch := []
  wf := dot_S16x2048_S1024x2048_S16x1024_1_1_0_0_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v9) S16x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S16x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16x8192 : Shape := ⟨2, ![16, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x8192, .f32⟩
  | .hbm, ⟨17, _⟩ => ⟨S16x8192, .f32⟩
  | .hbm, ⟨18, _⟩ => ⟨S_, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S16x8192, .f32⟩
  | .hbm, ⟨23, _⟩ => ⟨S16x8192, .f32⟩
  | .hbm, ⟨24, _⟩ => ⟨S16x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S16x8192, .f32⟩
  | .hbm, ⟨51, _⟩ => ⟨S1x8192, .f32⟩
  | .hbm, ⟨52, _⟩ => ⟨S16x8192, .f32⟩
  | .hbm, ⟨53, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_cst_8 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  reducesTo_S16x8192_S_d0_1 : S16x8192.ReducesTo [0, 1] S_
  h_S_ : 0 < S_.numel
  bcast_S_S16x8192 : S_.BroadcastsInDim S16x8192 (![] : Fin 0 → Fin S16x8192.rank)
  reducesTo_S8192x8192_S8192_d1 : S8192x8192.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_1_0_0_n_n_wf : DotDims.WF S16x8192 S8192x8192 S16x8192 [1] [1] [0] [0] [] []

variable [Facts₀]

def dot_S16x8192_S8192x8192_S16x8192_1_1_0_0_n_n : DotDims S16x8192 S8192x8192 S16x8192 where
  lhsContracting := [1]
  rhsContracting := [1]
  lhsNonContracting := [0]
  rhsNonContracting := [0]
  lhsBatch := []
  rhsBatch := []
  wf := dot_S16x8192_S8192x8192_S16x8192_1_1_0_0_n_n_wf

class Facts : Prop extends Facts₀ where

variable [Facts]
-- ==== Proof.K.Data.lean ====
/-
  The proof data of the two pallas_calls, as pure functions of the buffer contents `V` a region is entered with.

  Region 0 (grid of 32 points, one per 256 rows of the weight): the point's output block is the body's one
  payload of the point's 256×8192 weight block — the row means of absolute values, floored by ε.

  Region 1 (grid 8×4, point t = 4·o + k: output column block o, contraction block k): the kernel keeps a 16×1024
  accumulator in a scratch buffer that lives across points.  After point t it holds
      acc t = (if k = 0 then 0 else acc (t-1)) + xq_blk(k) · wq_blk(o,k)ᵀ
  and at the points with k = 3 the output block is `acc t + bias_blk(o)`; at the other points the output window is idle.
-/
import proofs.«178924_j67053029425862_1_alg».proof.Proof.Gen.Kernel.Launch
import proofs.«178924_j67053029425862_1_alg».proof.Proof.Gen.Kernel.Skeleton
import proofs.«178924_j67053029425862_1_alg».proof.Proof.Gen.Kernel.Points
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256×8192 block of the weight that point `t` reads. -/
abbrev wrows (c : Dev nD) (t : Fin cfg0.N) : Vec F S256x8192 .f32 := iblk0 V c 0 t

/-- Region 0's proof data: the arrays as found; after the body the input's buffer still holds its block and the
    output's holds the row scales of that block; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (wrows V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (wrows V c t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks point `t` reads: 16×2048 of the quantized activations, 1024×2048 of the weight, the 1024 row
    scales of those weight rows, and the 1024 bias entries of the output columns. -/
abbrev xblk (c : Dev nD) (t : Fin cfg1.N) : Vec F S16x2048 .f32 := iblk1 V c 0 t
abbrev wblk (c : Dev nD) (t : Fin cfg1.N) : Vec F S1024x2048 .f32 := iblk1 V c 1 t
abbrev ablk (c : Dev nD) (t : Fin cfg1.N) : Vec F S1024x1 .f32 := iblk1 V c 2 t
abbrev bblk (c : Dev nD) (t : Fin cfg1.N) : Vec F S1x1024 .f32 := iblk1 V c 3 t

/-- THE ACCUMULATOR after point `n`: the point's partial product added to zero at the first contraction block
    of a column block (n ≡ 0 mod 4), to what the point before left otherwise. -/
def acc1 (c : Dev nD) : (n : ℕ) → n < cfg1.N → Vec F S16x1024 .f32
  | 0, h => k1_pay2 (wblk V c ⟨0, h⟩) (ablk V c ⟨0, h⟩) (xblk V c ⟨0, h⟩) (k1_pay1 (F := F))
  | n + 1, h =>
    if (n + 1) % 4 = 0 then k1_pay2 (wblk V c ⟨n + 1, h⟩) (ablk V c ⟨n + 1, h⟩) (xblk V c ⟨n + 1, h⟩) (k1_pay1 (F := F))
    else k1_pay2 (wblk V c ⟨n + 1, h⟩) (ablk V c ⟨n + 1, h⟩) (xblk V c ⟨n + 1, h⟩) (acc1 c n (Nat.lt_of_succ_lt h))

theorem acc1_first (c : Dev nD) (t : Fin cfg1.N) (h : t.val % 4 = 0) :
    acc1 V c t.val t.isLt = k1_pay2 (wblk V c t) (ablk V c t) (xblk V c t) (k1_pay1 (F := F)) := by
  obtain ⟨n, hn⟩ := t
  cases n with
  | zero => rfl
  | succ n => exact if_pos h

theorem acc1_next (c : Dev nD) (t : Fin cfg1.N) (h : ¬ t.val % 4 = 0) :
    acc1 V c t.val t.isLt = k1_pay2 (wblk V c t) (ablk V c t) (xblk V c t)
      (acc1 V c (t.val - 1) (Nat.lt_of_le_of_lt (Nat.sub_le _ _) t.isLt)) := by
  obtain ⟨n, hn⟩ := t
  cases n with
  | zero => exact absurd (Nat.zero_mod _) h
  | succ n => exact if_neg h

/-- What the body leaves in the output window's buffer at a point with k = 3: the accumulator plus the bias row. -/
def out1 (c : Dev nD) (t : Fin cfg1.N) : Vec F S16x1024 .f32 := k1_pay3 (acc1 V c t.val t.isLt) (bblk V c t)

/-- The scratch accumulator as a memref, and the scoped buffers of the other pallas_call that ride along. -/
abbrev scM : Memref sig .tc .vmem S16x1024 .f32 := Memref.whole cc1_scratch0

/-- The other pallas_call's four staging buffers, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Region 1's invariant before position `n`: before the first point the scoped rest at anything and the generator
    register; afterwards the same with the accumulator at what the point before left. -/
def PhiS (c : Dev nD) : (n : ℕ) → n ≤ cfg1.N → sProp 𝕄
  | 0, _ => Pipeline.ΦA spec1 c
  | n + 1, hn => iprop(rest1 (F := F) c ∗ owns (c : Thread nD τ) scM fullShare (acc1 V c n hn) ∗ (∃ r, prngReg c r))

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.Kernel.Hand

end
-- ==== Proof.K.Body0.lean ====
/-
  Region 0 (the row-scale kernel), the body at every grid point: on whole staging buffers, the input's holding the
  point's 256×8192 weight block, the body loads that block, stores its one payload over the whole 256×1 output
  buffer, and touches nothing else.  Hence the pipeline's body obligation for the proof data `dat0`.
-/
import proofs.«178924_j67053029425862_1_alg».proof.Proof.K.Data
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input window's buffer holds the point's block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

abbrev r0_in : Rect S256x8192 := Rect.unit (s := S256x8192) ![0, 0] S256x8192.size inb_S256x8192_S256x8192_0_0
abbrev r0_out : Rect S256x1 := Rect.unit (s := S256x1) ![0, 0] S256x1.size inb_S256x1_S256x1_0_0

theorem hz2 : (![0, 0] : Fin 2 → Nat) = fun _ => 0 := by
  funext a; fin_cases a <;> rfl

/-- The one store covers the output buffer. -/
theorem cover0 (p0 : Vec F S256x1 .f32) (y : S256x1.Idx) :
    ∃ pc ∈ ([⟨r0_out, p0⟩] : List (View.Piece (Elt F) S256x1 .f32)), y ∈ pc.1.set :=
  View.cover_of_tiled [⟨r0_out, p0⟩] S256x1.size (by rfl) y

set_option maxHeartbeats 1000000 in
/-- The body's triple on whole staging memrefs. -/
theorem sound_kernel0 (c : Dev nD) (E : Set ℕ) (i : grid0.Coords) (arg1 : Memref sig .tc .vmem S256x8192 .f32) (harg1 : arg1.IsWhole)
    (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__alpha_kernel i arg1 harg1 arg2 harg2) K := by
  simp only [cc0__alpha_kernel_eq_skeleton]; unfold cc0__alpha_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0 _)).trans ?_
  rw [View.canon_unit_zero hz2]
  simp only [View.readAt_eq_ld, View.ld_unit_zero (S := S256x8192) hz2]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Runs1.lean ====
/-
  Region 1 (the quantize-and-multiply kernel), the body on whole staging buffers, in its three control cases.
  With k the contraction-block coordinate of the grid point:
    k = 0      the accumulator is zeroed, then the point's partial product is added; the output buffer is not touched;
    k = 1, 2   the partial product is added to what the accumulator held; the output buffer is not touched;
    k = 3      the same, and then accumulator + bias row is stored over the whole output buffer.
  In every case the four input buffers are only loaded.
-/
import proofs.«178924_j67053029425862_1_alg».proof.Proof.K.Data
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first branch is taken exactly when the contraction-block coordinate is 0, -/
abbrev cond1_0 (i : grid1.Coords) : Prop := (Scalar.cmpi .ne (Scalar.extui (Scalar.cmpi .eq (BitVec.ofNat 32 (i 1).val) 0#32)) 0#32) = 1#1
/-- and its last branch exactly when it is 3. -/
abbrev cond1_1 (i : grid1.Coords) : Prop := k1_cond2 i = 1#1

theorem hz2' : (![0, 0] : Fin 2 → Nat) = fun _ => 0 := by
  funext a; fin_cases a <;> rfl

/-- A list of stores whose LAST one is over the whole buffer covers the buffer. -/
theorem cover_head {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set := by
  subst h
  exact ⟨_, List.mem_cons_self .., by show y ∈ (Rect.whole S).set; rw [Rect.set_whole]; exact Finset.mem_univ y⟩

set_option maxHeartbeats 4000000 in
/-- k = 0. -/
theorem runA (c : Dev nD) (E : Set ℕ) (i : grid1.Coords)
    (arg2 : Memref sig .tc .vmem S16x2048 .f32) (harg2 : arg2.IsWhole) (arg3 : Memref sig .tc .vmem S1024x2048 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S16x1024 .f32) (harg6 : arg6.IsWhole) (arg7 : Memref sig .tc .vmem S16x1024 .f32) (harg7 : arg7.IsWhole)
    (hc0 : cond1_0 i) (hc1 : ¬ cond1_1 i)
    (x : Vec F S16x2048 .f32) (w : Vec F S1024x2048 .f32) (a : Vec F S1024x1 .f32) (b : Vec F S1x1024 .f32) (o : Vec F S16x1024 .f32)
    (K : PUnit → sProp 𝕄) :
    iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o ∗ (∃ d, owns (c : Thread nD τ) arg7 fullShare d)
        ∗ (iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o
            ∗ owns (c : Thread nD τ) arg7 fullShare (k1_pay2 w a x (k1_pay1 (F := F)))) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  refine (View.read_writes_eq_canon _ _ _ (cover_head hz2' _ _ _)).trans ?_
  rw [View.canon_cons_unit_zero hz2']
  simp only [View.readAt_eq_ld, View.readCov_unit_zero (S := S16x1024) _ hz2', View.ld_unit_zero (S := S16x2048) hz2', View.ld_unit_zero (S := S1024x2048) hz2',
    View.ld_unit_zero (S := S1024x1) hz2', View.ld_unit_zero (S := S16x1024) hz2']

set_option maxHeartbeats 4000000 in
/-- k = 1, 2. -/
theorem runB (c : Dev nD) (E : Set ℕ) (i : grid1.Coords)
    (arg2 : Memref sig .tc .vmem S16x2048 .f32) (harg2 : arg2.IsWhole) (arg3 : Memref sig .tc .vmem S1024x2048 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S16x1024 .f32) (harg6 : arg6.IsWhole) (arg7 : Memref sig .tc .vmem S16x1024 .f32) (harg7 : arg7.IsWhole)
    (hc0 : ¬ cond1_0 i) (hc1 : ¬ cond1_1 i)
    (x : Vec F S16x2048 .f32) (w : Vec F S1024x2048 .f32) (a : Vec F S1024x1 .f32) (b : Vec F S1x1024 .f32) (o : Vec F S16x1024 .f32) (s : Vec F S16x1024 .f32)
    (K : PUnit → sProp 𝕄) :
    iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o ∗ owns (c : Thread nD τ) arg7 fullShare s
        ∗ (iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o
            ∗ owns (c : Thread nD τ) arg7 fullShare (k1_pay2 w a x s)) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  refine (View.read_writes_eq_canon _ _ _ (cover_head hz2' _ _ _)).trans ?_
  rw [View.canon_cons_unit_zero hz2']
  simp only [View.readAt_eq_ld, View.ld_unit_zero (S := S16x2048) hz2', View.ld_unit_zero (S := S1024x2048) hz2',
    View.ld_unit_zero (S := S1024x1) hz2', View.ld_unit_zero (S := S16x1024) hz2']

set_option maxHeartbeats 4000000 in
/-- k = 3. -/
theorem runC (c : Dev nD) (E : Set ℕ) (i : grid1.Coords)
    (arg2 : Memref sig .tc .vmem S16x2048 .f32) (harg2 : arg2.IsWhole) (arg3 : Memref sig .tc .vmem S1024x2048 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S16x1024 .f32) (harg6 : arg6.IsWhole) (arg7 : Memref sig .tc .vmem S16x1024 .f32) (harg7 : arg7.IsWhole)
    (hc0 : ¬ cond1_0 i) (hc1 : cond1_1 i)
    (x : Vec F S16x2048 .f32) (w : Vec F S1024x2048 .f32) (a : Vec F S1024x1 .f32) (b : Vec F S1x1024 .f32) (s : Vec F S16x1024 .f32)
    (K : PUnit → sProp 𝕄) :
    iprop(owns (c : Thread nD τ) arg2 fullShare x ∗ owns (c : Thread nD τ) arg3 fullShare w ∗ owns (c : Thread nD τ) arg4 fullShare a
        ∗ owns (c : Thread nD τ) arg5 fullShare b ∗ (∃ d, owns (c : Thread nD τ) arg6 fullShare d) ∗ owns (c : Thread nD τ) arg7 fullShare s
        ∗ (iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare (k1_pay3 (k1_pay2 w a x s) b)
            ∗ owns (c : Thread nD τ) arg7 fullShare (k1_pay2 w a x s)) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2; subst hf3; subst hf4; subst hf5; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (View.read_writes_eq_canon _ _ _ (cover_head hz2' _ _ _)).trans ?_
    rw [View.canon_cons_unit_zero hz2']
    simp only [View.readAt_eq_ld, View.readCov_unit_zero (S := S16x1024) _ hz2', View.ld_unit_zero (S := S16x2048) hz2', View.ld_unit_zero (S := S1024x2048) hz2',
      View.ld_unit_zero (S := S1024x1) hz2', View.ld_unit_zero (S := S16x1024) hz2', View.ld_unit_zero (S := S1x1024) hz2']
  iexists _; isplitr
  swap; · iexact H7
  ipureintro
  sl_unfold_words
  refine (View.read_writes_eq_canon _ _ _ (cover_head hz2' _ _ _)).trans ?_
  rw [View.canon_cons_unit_zero hz2']
  simp only [View.readAt_eq_ld, View.ld_unit_zero (S := S16x2048) hz2', View.ld_unit_zero (S := S1024x2048) hz2',
    View.ld_unit_zero (S := S1024x1) hz2', View.ld_unit_zero (S := S16x1024) hz2']

end Cert.Kernel.Hand

end
-- ==== Proof.K.Body1.lean ====
/-
  Region 1, the pipeline's body obligation for the proof data `dat1`.  At the grid point t = 4·o + k the body is in
  the case k = 0 (accumulator zeroed first), k = 1, 2 (accumulated), or k = 3 (accumulated, then the output block stored):
  the two branch conditions are decided over the grid in closed form.  The output window is idle exactly at the
  points with k ≠ 3, where its buffer is handed back untouched.  The invariant hands the body the accumulator at
  what the point before left (at anything before the first point) and takes it back at this point's contents.
-/
import proofs.«178924_j67053029425862_1_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid, and where the output window is idle -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4 : ∀ t : Fin cfg1.N, ¬ cond1_1 (grid1.coords t) → cfg1.idle 4 (grid1.coords t) = true := by decide +kernel
theorem noFlush1_4 : ∀ t : Fin cfg1.N, ¬ cond1_1 (grid1.coords t) → (cfg1.win 4).flush t = false := by decide +kernel
theorem liveAt1_4 : ∀ t : Fin cfg1.N, cond1_1 (grid1.coords t) → cfg1.idle 4 (grid1.coords t) = false := by decide +kernel

/-! ## The input windows' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The invariant's faces -/

/-- Before the first point: the scoped rest — the other pallas_call's staging buffers and the accumulator, at anything — and
    the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM fullShare d)) ∗ (∃ r, prngReg c r)) := by
  unfold Pipeline.ΦA; rw [scopedRest1_eq]; simp only [scM, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM fullShare (acc1 V c n hn) ∗ (∃ r, prngReg c r)) := rfl

theorem PhiS_pos (c : Dev nD) (n : ℕ) (h : n ≤ cfg1.N) (hz : n ≠ 0) :
    PhiS V c n h = iprop(rest1 (F := F) c ∗ owns (c : Thread nD τ) scM fullShare (acc1 V c (n - 1) (by omega)) ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-! ## The obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, PhiS_castSucc]
  by_cases h0 : t.val % 4 = 0
  · -- k = 0
    have hc0 : cond1_0 (grid1.coords t) := (hcond1_0 t).mpr h0
    have hc1 : ¬ cond1_1 (grid1.coords t) := fun h => by have := (hcond1_1 t).mp h; omega
    rw [Dat.leavesExact_idle (dat1 V c) 4 t (idleAt1_4 t hc1) (noFlush1_4 t hc1), acc1_first V c t h0]
    by_cases hz : t.val = 0
    · rw [PhiS_zero V c _ _ hz, PhiA1_eq]
      iintro ⟨⟨⟨HA, HB, HC, HD, HS⟩, Hg⟩, Ho, ⟨%d0, H0⟩, ⟨%d1, H1⟩, ⟨%d2, H2⟩, ⟨%d3, H3⟩, ⟨%d4, H4⟩⟩
      iapply (runA c Set.univ (grid1.coords t) _ _ _ _ _ _ _ _ _ _ _ _ hc0 hc1 (xblk V c t) (wblk V c t) (ablk V c t) (bblk V c t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HA HB HC HD HS Hg]
      · unfold rest1
        isplitl [HA HB HC HD]
        · isplitl [HA]; · iexact HA
          isplitl [HB]; · iexact HB
          isplitl [HC]; · iexact HC
          iexact HD
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS_pos V c _ _ hz]
      iintro ⟨⟨HR, HS, Hg⟩, Ho, ⟨%d0, H0⟩, ⟨%d1, H1⟩, ⟨%d2, H2⟩, ⟨%d3, H3⟩, ⟨%d4, H4⟩⟩
      iapply (runA c Set.univ (grid1.coords t) _ _ _ _ _ _ _ _ _ _ _ _ hc0 hc1 (xblk V c t) (wblk V c t) (ablk V c t) (bblk V c t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hc0 : ¬ cond1_0 (grid1.coords t) := fun h => h0 ((hcond1_0 t).mp h)
    have hz : t.val ≠ 0 := fun e => h0 (by rw [e])
    rw [PhiS_pos V c _ _ hz, acc1_next V c t h0]
    by_cases h3 : t.val % 4 = 3
    · -- k = 3
      have hc1 : cond1_1 (grid1.coords t) := (hcond1_1 t).mpr h3
      rw [show (dat1 V c).leavesExact 4 t = owns (c : Thread nD τ) (st1_4 t) fullShare (out1 V c t) from by
        unfold Dat.leavesExact; rw [liveAt1_4 t hc1, after1_4]]
      unfold out1
      rw [acc1_next V c t h0]
      iintro ⟨⟨HR, HS, Hg⟩, Ho, ⟨%d0, H0⟩, ⟨%d1, H1⟩, ⟨%d2, H2⟩, ⟨%d3, H3⟩, ⟨%d4, H4⟩⟩
      iapply (runC c Set.univ (grid1.coords t) _ _ _ _ _ _ _ _ _ _ _ _ hc0 hc1 (xblk V c t) (wblk V c t) (ablk V c t) (bblk V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · -- k = 1, 2
      have hc1 : ¬ cond1_1 (grid1.coords t) := fun h => h3 ((hcond1_1 t).mp h)
      rw [Dat.leavesExact_idle (dat1 V c) 4 t (idleAt1_4 t hc1) (noFlush1_4 t hc1)]
      iintro ⟨⟨HR, HS, Hg⟩, Ho, ⟨%d0, H0⟩, ⟨%d1, H1⟩, ⟨%d2, H2⟩, ⟨%d3, H3⟩, ⟨%d4, H4⟩⟩
      iapply (runB c Set.univ (grid1.coords t) _ _ _ _ _ _ _ _ _ _ _ _ hc0 hc1 (xblk V c t) (wblk V c t) (ablk V c t) (bblk V c t) ((dat1 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  unfold rest1
  iintro ⟨⟨HA, HB, HC, HD⟩, HS, Hg⟩
  isplitl [HA HB HC HD HS]
  · isplitl [HA]; · iexact HA
    isplitl [HB]; · iexact HB
    isplitl [HC]; · iexact HC
    isplitl [HD]; · iexact HD
    iexists _; iexact HS
  iexact Hg

end Cert.Kernel.Hand

end
-- ==== Proof.K.Run.lean ====
/-
  The run of @main: five stretches of host operations, the row-scale pallas_call, one reshape, the quantize-and-multiply
  pallas_call.  Between two items every unscoped buffer of the core is held at named contents: the launch memory, then
  each stretch's operations applied, and after a pallas_call its output array at what the pipeline's write-backs leave
  (`arrAt … N` of the region's proof data), every other buffer as the region found it.  Each pallas_call is a segment
  record over its proof data and body obligation; the generator register and the core owing nothing ride along.  Every
  weakly fair execution then ends with every unscoped buffer at the last boundary's contents: the arguments as
  launched, and the result array at region 1's `arrAt`.
-/
import proofs.«178924_j67053029425862_1_alg».proof.Proof.K.Body0
import proofs.«178924_j67053029425862_1_alg».proof.Proof.K.Body1
import proofs.«178924_j67053029425862_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region boundaries -/

/-- What region 0 is entered with, read at the TensorCore's references. -/
abbrev Ve0 : (c : Dev nD) → (b : Ref sig .tc) → Buf (Elt F) ((c : Thread nD τ).loc b) := fun c b => V5 m c b

/-- What region 0 leaves in its output array. -/
abbrev res0 (c : Dev nD) : Buf (Elt F) ((c : Thread nD τ).loc main_v10) := (dat0 (Ve0 m) c).arrAt 1 cfg0.N

/-- After region 0, and after the reshape that follows it. -/
abbrev U6 (c : Dev nD) : Valuation τ sig (Elt F) := Function.update (V5 m c) main_v10 (res0 m c)
abbrev U7 (c : Dev nD) : Valuation τ sig (Elt F) := StableHlo.after hostOps1 (U6 m c)

/-- What region 1 is entered with, read at the TensorCore's references. -/
abbrev Ve1 : (c : Dev nD) → (b : Ref sig .tc) → Buf (Elt F) ((c : Thread nD τ).loc b) := fun c b => U7 m c b

/-- What region 1 leaves in its output array: the program's result. -/
abbrev res1 (c : Dev nD) : Buf (Elt F) ((c : Thread nD τ).loc main_v12) := (dat1 (Ve1 m) c).arrAt 4 cfg1.N

/-- What each region leaves in the array it writes, as the family the boundary contents are written over. -/
def outs : Outs (F := F)
  | 6, r, c => Function.update (V5 m c) main_v10 (res0 m c) r
  | _, r, c => Function.update (U7 m c) main_v12 (res1 m c) r

theorem V6_eq (c : Dev nD) : V6 m (outs m) c = U6 m c := by
  unfold V6 U6 outs; simp only [Function.update_self]
theorem V7_eq (c : Dev nD) : V7 m (outs m) c = U7 m c := by
  unfold V7 U7; rw [V6_eq]
/-- The contents at the end. -/
abbrev U8 (c : Dev nD) : Valuation τ sig (Elt F) := Function.update (U7 m c) main_v12 (res1 m c)
theorem V8_eq (c : Dev nD) : V8 m (outs m) c = U8 m c := by
  unfold V8 U8; rw [V7_eq]; unfold outs; simp only [Function.update_self]

/-! ## Each region's arrays at its exit, every other buffer as entered -/

/-- The contents at region 0's and region 1's exits, read at the TensorCore's references. -/
abbrev Vx0 : (c : Dev nD) → (b : Ref sig .tc) → Buf (Elt F) ((c : Thread nD τ).loc b) := fun c b => U6 m c b
abbrev Vx1 : (c : Dev nD) → (b : Ref sig .tc) → Buf (Elt F) ((c : Thread nD τ).loc b) := fun c b => U8 m c b

theorem hF0_0 (c : Dev nD) : (dat0 (Ve0 m) c).arrAt 0 cfg0.N = Vx0 m c main_arg1 := by
  rw [(dat0 (Ve0 m) c).arrAt_in 0 rfl, A_eq0]
  exact (Function.update_of_ne (StableHlo.devRef_ne_of_ne (by decide) : (Proc.devRef .tc main_arg1 : DevRef τ sig) ≠ Proc.devRef .tc main_v10) _ _).symm
theorem hF0_1 (c : Dev nD) : (dat0 (Ve0 m) c).arrAt 1 cfg0.N = Vx0 m c main_v10 :=
  (Function.update_self (Proc.devRef .tc main_v10 : DevRef τ sig) (res0 m c) (V5 m c)).symm
theorem hF0 (c : Dev nD) (w : Fin cfg0.W) : (dat0 (Ve0 m) c).arrAt w cfg0.N = Vx0 m c (Pipeline.arrRef spec0 w) :=
  match w with
  | ⟨0, _⟩ => hF0_0 m c
  | ⟨1, _⟩ => hF0_1 m c

theorem hrest0 (c : Dev nD) : ∀ b : Ref sig .tc, b ∉ Finset.univ.image (Pipeline.arrRef spec0) → Vx0 m c b = Ve0 m c b := by
  intro b hb
  have hne : b ≠ main_v10 := fun e => hb (Finset.mem_image.mpr ⟨1, Finset.mem_univ _, e.symm⟩)
  exact Function.update_of_ne (StableHlo.devRef_ne_of_ne hne) _ _

theorem hF1_0 (c : Dev nD) : (dat1 (Ve1 m) c).arrAt 0 cfg1.N = Vx1 m c main_v9 := by
  rw [(dat1 (Ve1 m) c).arrAt_in 0 rfl, A_eq1]
  exact (Function.update_of_ne (StableHlo.devRef_ne_of_ne (by decide) : (Proc.devRef .tc main_v9 : DevRef τ sig) ≠ Proc.devRef .tc main_v12) _ _).symm
theorem hF1_1 (c : Dev nD) : (dat1 (Ve1 m) c).arrAt 1 cfg1.N = Vx1 m c main_arg1 := by
  rw [(dat1 (Ve1 m) c).arrAt_in 1 rfl, A_eq1]
  exact (Function.update_of_ne (StableHlo.devRef_ne_of_ne (by decide) : (Proc.devRef .tc main_arg1 : DevRef τ sig) ≠ Proc.devRef .tc main_v12) _ _).symm
theorem hF1_2 (c : Dev nD) : (dat1 (Ve1 m) c).arrAt 2 cfg1.N = Vx1 m c main_v10 := by
  rw [(dat1 (Ve1 m) c).arrAt_in 2 rfl, A_eq1]
  exact (Function.update_of_ne (StableHlo.devRef_ne_of_ne (by decide) : (Proc.devRef .tc main_v10 : DevRef τ sig) ≠ Proc.devRef .tc main_v12) _ _).symm
theorem hF1_3 (c : Dev nD) : (dat1 (Ve1 m) c).arrAt 3 cfg1.N = Vx1 m c main_v11 := by
  rw [(dat1 (Ve1 m) c).arrAt_in 3 rfl, A_eq1]
  exact (Function.update_of_ne (StableHlo.devRef_ne_of_ne (by decide) : (Proc.devRef .tc main_v11 : DevRef τ sig) ≠ Proc.devRef .tc main_v12) _ _).symm
theorem hF1_4 (c : Dev nD) : (dat1 (Ve1 m) c).arrAt 4 cfg1.N = Vx1 m c main_v12 :=
  (Function.update_self (Proc.devRef .tc main_v12 : DevRef τ sig) (res1 m c) (U7 m c)).symm
theorem hF1 (c : Dev nD) (w : Fin cfg1.W) : (dat1 (Ve1 m) c).arrAt w cfg1.N = Vx1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c

theorem hrest1 (c : Dev nD) : ∀ b : Ref sig .tc, b ∉ Finset.univ.image (Pipeline.arrRef spec1) → Vx1 m c b = Ve1 m c b := by
  intro b hb
  have hne : b ≠ main_v12 := fun e => hb (Finset.mem_image.mpr ⟨4, Finset.mem_univ _, e.symm⟩)
  exact Function.update_of_ne (StableHlo.devRef_ne_of_ne hne) _ _

/-! ## The proof data family and what rides along -/

/-- Each pallas_call's proof data at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The row-scale pallas_call: entered with every unscoped buffer at the contents after the host prefix, left with
    its output array at `res0`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantize-and-multiply pallas_call: entered after the reshape, left with the result array at `res1`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ve1 m) c); unfold Pipeline.ΦA
    iintro ⟨Hp, -, Hr⟩
    isplitl [Hr]; · iexact Hr
    iexact Hp
  hout c := by
    rw [Pipeline.ownSems0_none]; refine (hout1 (Ve1 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch over @main's segments -/

-- the launch theorem's implicit arguments are found by unifying its conclusion with this one
set_option backward.isDefEq.respectTransparency.types false in
/-- From one segment record per pallas_call, entered and left at the boundary contents, every weakly fair execution of
    @main ends with every unscoped buffer of every core at the last boundary's contents: @main is the list of its eight
    items, each host stretch a segment from its boundary's contents, consecutive segments chained by those contents, and
    at the end every held buffer is read against the final memory. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V8 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, .rfl, .rfl, hpre0 c, hpost0 c, hpre1 c, (hpost1 c).trans (sep_mono .rfl (hE2 c))⟩)
    (hinit := ?_) (QY := fun c s => ∀ b ∈ Pipeline.ucRefs τ sig, s.mem (((c : Thread nD τ)).1, b) = V8 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro; exact h
    · iexact HSI

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the launch deals a core besides its buffers gives the generator register at some state and the core owing nothing. -/
theorem launch_rest (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ emp) : sProp 𝕄) ⊢ R (F := F) c := by
  iintro ⟨-, HO, -, Hp, -⟩
  isplitl [Hp]; · iexists _; iexact Hp
  iexists ∅; iexact HO

set_option backward.isDefEq.respectTransparency.types false in
/-- THE RUN: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) :=
  run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R (F := F) c)
    (by
      have hm : (bigSep Finset.univ fun c : Dev nD => (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄))
          ⊢ (bigSep Finset.univ fun c : Dev nD => R (F := F) c : sProp 𝕄) :=
        bigSep_mono fun c _ => launch_rest ρ c
      iintro ⟨H, -⟩
      imodintro
      iapply hm
      iexact H)
    (fun c => by iintro ⟨-, H⟩; iexact H)
    (reg0 m) (fun c => .rfl) (fun c => by rw [V6_eq]; exact .rfl)
    (reg1 m) (fun c => by rw [V7_eq]; exact .rfl) (fun c => by rw [V8_eq]; exact .rfl)

/-- The result array at the end is what region 1 leaves. -/
theorem V8_result (c : Dev nD) : V8 m (outs m) c main_v12 = res1 m c := by
  rw [V8_eq]; exact Function.update_self ..

/-- THE FRAME: every weakly fair execution of @main terminates, nothing faulting, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c)⟩) (run_all m ρ)

/-- THE RUN WITH THE RESULT NAMED: the same, and the result array ends at `res1`. -/
theorem run_value : θ_run defs (onTc (τ := τ) (main (F := F))) ⟨m, fun _ => 0, ρ⟩ (fun r => ∀ c : Dev nD,
      r.2.mem ((c.tc : Thread nD τ).loc main_v12) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v12 (by decide))).trans (V8_result m c),
     (h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c)⟩) (run_all m ρ)

end Cert.Kernel.Hand

end
-- ==== Proof.KI.Data.lean ====
/-
  The proof data of the two pallas_calls, as pure functions of the buffer contents `V` a region is entered with.

  Region 0 (grid of 32 points, one per 256 rows of the weight): the point's output block is the body's one
  payload of the point's 256×8192 weight block — the row means of absolute values, floored by ε.

  Region 1 (grid 8×4, point t = 4·o + k: output column block o, contraction block k): the kernel keeps a 16×1024
  accumulator in a scratch buffer that lives across points.  After point t it holds
      acc t = (if k = 0 then 0 else acc (t-1)) + xq_blk(k) · wq_blk(o,k)ᵀ
  and at the points with k = 3 the output block is `acc t + bias_blk(o)`; at the other points the output window is idle.
-/
import proofs.«178924_j67053029425862_1_alg».proof.Proof.Gen.KernelIdeal.Launch
import proofs.«178924_j67053029425862_1_alg».proof.Proof.Gen.KernelIdeal.Skeleton
import proofs.«178924_j67053029425862_1_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256×8192 block of the weight that point `t` reads. -/
abbrev wrows (c : Dev nD) (t : Fin cfg0.N) : Vec F S256x8192 .f32 := iblk0 V c 0 t

/-- Region 0's proof data: the arrays as found; after the body the input's buffer still holds its block and the
    output's holds the row scales of that block; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (wrows V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (wrows V c t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks point `t` reads: 16×2048 of the quantized activations, 1024×2048 of the weight, the 1024 row
    scales of those weight rows, and the 1024 bias entries of the output columns. -/
abbrev xblk (c : Dev nD) (t : Fin cfg1.N) : Vec F S16x2048 .f32 := iblk1 V c 0 t
abbrev wblk (c : Dev nD) (t : Fin cfg1.N) : Vec F S1024x2048 .f32 := iblk1 V c 1 t
abbrev ablk (c : Dev nD) (t : Fin cfg1.N) : Vec F S1024x1 .f32 := iblk1 V c 2 t
abbrev bblk (c : Dev nD) (t : Fin cfg1.N) : Vec F S1x1024 .f32 := iblk1 V c 3 t

/-- THE ACCUMULATOR after point `n`: the point's partial product added to zero at the first contraction block
    of a column block (n ≡ 0 mod 4), to what the point before left otherwise. -/
def acc1 (c : Dev nD) : (n : ℕ) → n < cfg1.N → Vec F S16x1024 .f32
  | 0, h => k1_pay2 (wblk V c ⟨0, h⟩) (ablk V c ⟨0, h⟩) (xblk V c ⟨0, h⟩) (k1_pay1 (F := F))
  | n + 1, h =>
    if (n + 1) % 4 = 0 then k1_pay2 (wblk V c ⟨n + 1, h⟩) (ablk V c ⟨n + 1, h⟩) (xblk V c ⟨n + 1, h⟩) (k1_pay1 (F := F))
    else k1_pay2 (wblk V c ⟨n + 1, h⟩) (ablk V c ⟨n + 1, h⟩) (xblk V c ⟨n + 1, h⟩) (acc1 c n (Nat.lt_of_succ_lt h))

theorem acc1_first (c : Dev nD) (t : Fin cfg1.N) (h : t.val % 4 = 0) :
    acc1 V c t.val t.isLt = k1_pay2 (wblk V c t) (ablk V c t) (xblk V c t) (k1_pay1 (F := F)) := by
  obtain ⟨n, hn⟩ := t
  cases n with
  | zero => rfl
  | succ n => exact if_pos h

theorem acc1_next (c : Dev nD) (t : Fin cfg1.N) (h : ¬ t.val % 4 = 0) :
    acc1 V c t.val t.isLt = k1_pay2 (wblk V c t) (ablk V c t) (xblk V c t)
      (acc1 V c (t.val - 1) (Nat.lt_of_le_of_lt (Nat.sub_le _ _) t.isLt)) := by
  obtain ⟨n, hn⟩ := t
  cases n with
  | zero => exact absurd (Nat.zero_mod _) h
  | succ n => exact if_neg h

/-- What the body leaves in the output window's buffer at a point with k = 3: the accumulator plus the bias row. -/
def out1 (c : Dev nD) (t : Fin cfg1.N) : Vec F S16x1024 .f32 := k1_pay3 (acc1 V c t.val t.isLt) (bblk V c t)

/-- The scratch accumulator as a memref, and the scoped buffers of the other pallas_call that ride along. -/
abbrev scM : Memref sig .tc .vmem S16x1024 .f32 := Memref.whole cc1_scratch0

/-- The other pallas_call's four staging buffers, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Region 1's invariant before position `n`: before the first point the scoped rest at anything and the generator
    register; afterwards the same with the accumulator at what the point before left. -/
def PhiS (c : Dev nD) : (n : ℕ) → n ≤ cfg1.N → sProp 𝕄
  | 0, _ => Pipeline.ΦA spec1 c
  | n + 1, hn => iprop(rest1 (F := F) c ∗ owns (c : Thread nD τ) scM fullShare (acc1 V c n hn) ∗ (∃ r, prngReg c r))

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.KernelIdeal.Hand

end
-- ==== Proof.KI.Body0.lean ====
/-
  Region 0 (the row-scale kernel), the body at every grid point: on whole staging buffers, the input's holding the
  point's 256×8192 weight block, the body loads that block, stores its one payload over the whole 256×1 output
  buffer, and touches nothing else.  Hence the pipeline's body obligation for the proof data `dat0`.
-/
import proofs.«178924_j67053029425862_1_alg».proof.Proof.KI.Data
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input window's buffer holds the point's block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

abbrev r0_in : Rect S256x8192 := Rect.unit (s := S256x8192) ![0, 0] S256x8192.size inb_S256x8192_S256x8192_0_0
abbrev r0_out : Rect S256x1 := Rect.unit (s := S256x1) ![0, 0] S256x1.size inb_S256x1_S256x1_0_0

theorem hz2 : (![0, 0] : Fin 2 → Nat) = fun _ => 0 := by
  funext a; fin_cases a <;> rfl

/-- The one store covers the output buffer. -/
theorem cover0 (p0 : Vec F S256x1 .f32) (y : S256x1.Idx) :
    ∃ pc ∈ ([⟨r0_out, p0⟩] : List (View.Piece (Elt F) S256x1 .f32)), y ∈ pc.1.set :=
  View.cover_of_tiled [⟨r0_out, p0⟩] S256x1.size (by rfl) y

set_option maxHeartbeats 1000000 in
/-- The body's triple on whole staging memrefs. -/
theorem sound_kernel0 (c : Dev nD) (E : Set ℕ) (i : grid0.Coords) (arg1 : Memref sig .tc .vmem S256x8192 .f32) (harg1 : arg1.IsWhole)
    (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__alpha_kernel i arg1 harg1 arg2 harg2) K := by
  simp only [cc0__alpha_kernel_eq_skeleton]; unfold cc0__alpha_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0 _)).trans ?_
  rw [View.canon_unit_zero hz2]
  simp only [View.readAt_eq_ld, View.ld_unit_zero (S := S256x8192) hz2]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Runs1.lean ====
/-
  Region 1 (the quantize-and-multiply kernel), the body on whole staging buffers, in its three control cases.
  With k the contraction-block coordinate of the grid point:
    k = 0      the accumulator is zeroed, then the point's partial product is added; the output buffer is not touched;
    k = 1, 2   the partial product is added to what the accumulator held; the output buffer is not touched;
    k = 3      the same, and then accumulator + bias row is stored over the whole output buffer.
  In every case the four input buffers are only loaded.
-/
import proofs.«178924_j67053029425862_1_alg».proof.Proof.KI.Data
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first branch is taken exactly when the contraction-block coordinate is 0, -/
abbrev cond1_0 (i : grid1.Coords) : Prop := (Scalar.cmpi .ne (Scalar.extui (Scalar.cmpi .eq (BitVec.ofNat 32 (i 1).val) 0#32)) 0#32) = 1#1
/-- and its last branch exactly when it is 3. -/
abbrev cond1_1 (i : grid1.Coords) : Prop := k1_cond2 i = 1#1

theorem hz2' : (![0, 0] : Fin 2 → Nat) = fun _ => 0 := by
  funext a; fin_cases a <;> rfl

/-- A list of stores whose LAST one is over the whole buffer covers the buffer. -/
theorem cover_head {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set := by
  subst h
  exact ⟨_, List.mem_cons_self .., by show y ∈ (Rect.whole S).set; rw [Rect.set_whole]; exact Finset.mem_univ y⟩

set_option maxHeartbeats 4000000 in
/-- k = 0. -/
theorem runA (c : Dev nD) (E : Set ℕ) (i : grid1.Coords)
    (arg2 : Memref sig .tc .vmem S16x2048 .f32) (harg2 : arg2.IsWhole) (arg3 : Memref sig .tc .vmem S1024x2048 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S16x1024 .f32) (harg6 : arg6.IsWhole) (arg7 : Memref sig .tc .vmem S16x1024 .f32) (harg7 : arg7.IsWhole)
    (hc0 : cond1_0 i) (hc1 : ¬ cond1_1 i)
    (x : Vec F S16x2048 .f32) (w : Vec F S1024x2048 .f32) (a : Vec F S1024x1 .f32) (b : Vec F S1x1024 .f32) (o : Vec F S16x1024 .f32)
    (K : PUnit → sProp 𝕄) :
    iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o ∗ (∃ d, owns (c : Thread nD τ) arg7 fullShare d)
        ∗ (iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o
            ∗ owns (c : Thread nD τ) arg7 fullShare (k1_pay2 w a x (k1_pay1 (F := F)))) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  refine (View.read_writes_eq_canon _ _ _ (cover_head hz2' _ _ _)).trans ?_
  rw [View.canon_cons_unit_zero hz2']
  simp only [View.readAt_eq_ld, View.readCov_unit_zero (S := S16x1024) _ hz2', View.ld_unit_zero (S := S16x2048) hz2', View.ld_unit_zero (S := S1024x2048) hz2',
    View.ld_unit_zero (S := S1024x1) hz2', View.ld_unit_zero (S := S16x1024) hz2']

set_option maxHeartbeats 4000000 in
/-- k = 1, 2. -/
theorem runB (c : Dev nD) (E : Set ℕ) (i : grid1.Coords)
    (arg2 : Memref sig .tc .vmem S16x2048 .f32) (harg2 : arg2.IsWhole) (arg3 : Memref sig .tc .vmem S1024x2048 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S16x1024 .f32) (harg6 : arg6.IsWhole) (arg7 : Memref sig .tc .vmem S16x1024 .f32) (harg7 : arg7.IsWhole)
    (hc0 : ¬ cond1_0 i) (hc1 : ¬ cond1_1 i)
    (x : Vec F S16x2048 .f32) (w : Vec F S1024x2048 .f32) (a : Vec F S1024x1 .f32) (b : Vec F S1x1024 .f32) (o : Vec F S16x1024 .f32) (s : Vec F S16x1024 .f32)
    (K : PUnit → sProp 𝕄) :
    iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o ∗ owns (c : Thread nD τ) arg7 fullShare s
        ∗ (iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare o
            ∗ owns (c : Thread nD τ) arg7 fullShare (k1_pay2 w a x s)) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  refine (View.read_writes_eq_canon _ _ _ (cover_head hz2' _ _ _)).trans ?_
  rw [View.canon_cons_unit_zero hz2']
  simp only [View.readAt_eq_ld, View.ld_unit_zero (S := S16x2048) hz2', View.ld_unit_zero (S := S1024x2048) hz2',
    View.ld_unit_zero (S := S1024x1) hz2', View.ld_unit_zero (S := S16x1024) hz2']

set_option maxHeartbeats 4000000 in
/-- k = 3. -/
theorem runC (c : Dev nD) (E : Set ℕ) (i : grid1.Coords)
    (arg2 : Memref sig .tc .vmem S16x2048 .f32) (harg2 : arg2.IsWhole) (arg3 : Memref sig .tc .vmem S1024x2048 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S16x1024 .f32) (harg6 : arg6.IsWhole) (arg7 : Memref sig .tc .vmem S16x1024 .f32) (harg7 : arg7.IsWhole)
    (hc0 : ¬ cond1_0 i) (hc1 : cond1_1 i)
    (x : Vec F S16x2048 .f32) (w : Vec F S1024x2048 .f32) (a : Vec F S1024x1 .f32) (b : Vec F S1x1024 .f32) (s : Vec F S16x1024 .f32)
    (K : PUnit → sProp 𝕄) :
    iprop(owns (c : Thread nD τ) arg2 fullShare x ∗ owns (c : Thread nD τ) arg3 fullShare w ∗ owns (c : Thread nD τ) arg4 fullShare a
        ∗ owns (c : Thread nD τ) arg5 fullShare b ∗ (∃ d, owns (c : Thread nD τ) arg6 fullShare d) ∗ owns (c : Thread nD τ) arg7 fullShare s
        ∗ (iprop(owns (c : Thread nD τ) arg2 fullShare x ∗ owns (c : Thread nD τ) arg3 fullShare w ∗ owns (c : Thread nD τ) arg4 fullShare a
        ∗ owns (c : Thread nD τ) arg5 fullShare b ∗ owns (c : Thread nD τ) arg6 fullShare (k1_pay3 (k1_pay2 w a x s) b)
            ∗ owns (c : Thread nD τ) arg7 fullShare (k1_pay2 w a x s)) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2; subst hf3; subst hf4; subst hf5; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (View.read_writes_eq_canon _ _ _ (cover_head hz2' _ _ _)).trans ?_
    rw [View.canon_cons_unit_zero hz2']
    simp only [View.readAt_eq_ld, View.readCov_unit_zero (S := S16x1024) _ hz2', View.ld_unit_zero (S := S16x2048) hz2', View.ld_unit_zero (S := S1024x2048) hz2',
      View.ld_unit_zero (S := S1024x1) hz2', View.ld_unit_zero (S := S16x1024) hz2', View.ld_unit_zero (S := S1x1024) hz2']
  iexists _; isplitr
  swap; · iexact H7
  ipureintro
  sl_unfold_words
  refine (View.read_writes_eq_canon _ _ _ (cover_head hz2' _ _ _)).trans ?_
  rw [View.canon_cons_unit_zero hz2']
  simp only [View.readAt_eq_ld, View.ld_unit_zero (S := S16x2048) hz2', View.ld_unit_zero (S := S1024x2048) hz2',
    View.ld_unit_zero (S := S1024x1) hz2', View.ld_unit_zero (S := S16x1024) hz2']

end Cert.KernelIdeal.Hand

end
-- ==== Proof.KI.Body1.lean ====
/-
  Region 1, the pipeline's body obligation for the proof data `dat1`.  At the grid point t = 4·o + k the body is in
  the case k = 0 (accumulator zeroed first), k = 1, 2 (accumulated), or k = 3 (accumulated, then the output block stored):
  the two branch conditions are decided over the grid in closed form.  The output window is idle exactly at the
  points with k ≠ 3, where its buffer is handed back untouched.  The invariant hands the body the accumulator at
  what the point before left (at anything before the first point) and takes it back at this point's contents.
-/
import proofs.«178924_j67053029425862_1_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid, and where the output window is idle -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4 : ∀ t : Fin cfg1.N, ¬ cond1_1 (grid1.coords t) → cfg1.idle 4 (grid1.coords t) = true := by decide +kernel
theorem noFlush1_4 : ∀ t : Fin cfg1.N, ¬ cond1_1 (grid1.coords t) → (cfg1.win 4).flush t = false := by decide +kernel
theorem liveAt1_4 : ∀ t : Fin cfg1.N, cond1_1 (grid1.coords t) → cfg1.idle 4 (grid1.coords t) = false := by decide +kernel

/-! ## The input windows' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The invariant's faces -/

/-- Before the first point: the scoped rest — the other pallas_call's staging buffers and the accumulator, at anything — and
    the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM fullShare d)) ∗ (∃ r, prngReg c r)) := by
  unfold Pipeline.ΦA; rw [scopedRest1_eq]; simp only [scM, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM fullShare (acc1 V c n hn) ∗ (∃ r, prngReg c r)) := rfl

theorem PhiS_pos (c : Dev nD) (n : ℕ) (h : n ≤ cfg1.N) (hz : n ≠ 0) :
    PhiS V c n h = iprop(rest1 (F := F) c ∗ owns (c : Thread nD τ) scM fullShare (acc1 V c (n - 1) (by omega)) ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-! ## The obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, PhiS_castSucc]
  by_cases h0 : t.val % 4 = 0
  · -- k = 0
    have hc0 : cond1_0 (grid1.coords t) := (hcond1_0 t).mpr h0
    have hc1 : ¬ cond1_1 (grid1.coords t) := fun h => by have := (hcond1_1 t).mp h; omega
    rw [Dat.leavesExact_idle (dat1 V c) 4 t (idleAt1_4 t hc1) (noFlush1_4 t hc1), acc1_first V c t h0]
    by_cases hz : t.val = 0
    · rw [PhiS_zero V c _ _ hz, PhiA1_eq]
      iintro ⟨⟨⟨HA, HB, HC, HD, HS⟩, Hg⟩, Ho, ⟨%d0, H0⟩, ⟨%d1, H1⟩, ⟨%d2, H2⟩, ⟨%d3, H3⟩, ⟨%d4, H4⟩⟩
      iapply (runA c Set.univ (grid1.coords t) _ _ _ _ _ _ _ _ _ _ _ _ hc0 hc1 (xblk V c t) (wblk V c t) (ablk V c t) (bblk V c t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HA HB HC HD HS Hg]
      · unfold rest1
        isplitl [HA HB HC HD]
        · isplitl [HA]; · iexact HA
          isplitl [HB]; · iexact HB
          isplitl [HC]; · iexact HC
          iexact HD
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS_pos V c _ _ hz]
      iintro ⟨⟨HR, HS, Hg⟩, Ho, ⟨%d0, H0⟩, ⟨%d1, H1⟩, ⟨%d2, H2⟩, ⟨%d3, H3⟩, ⟨%d4, H4⟩⟩
      iapply (runA c Set.univ (grid1.coords t) _ _ _ _ _ _ _ _ _ _ _ _ hc0 hc1 (xblk V c t) (wblk V c t) (ablk V c t) (bblk V c t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hc0 : ¬ cond1_0 (grid1.coords t) := fun h => h0 ((hcond1_0 t).mp h)
    have hz : t.val ≠ 0 := fun e => h0 (by rw [e])
    rw [PhiS_pos V c _ _ hz, acc1_next V c t h0]
    by_cases h3 : t.val % 4 = 3
    · -- k = 3
      have hc1 : cond1_1 (grid1.coords t) := (hcond1_1 t).mpr h3
      rw [show (dat1 V c).leavesExact 4 t = owns (c : Thread nD τ) (st1_4 t) fullShare (out1 V c t) from by
        unfold Dat.leavesExact; rw [liveAt1_4 t hc1, after1_4]]
      unfold out1
      rw [acc1_next V c t h0]
      iintro ⟨⟨HR, HS, Hg⟩, Ho, ⟨%d0, H0⟩, ⟨%d1, H1⟩, ⟨%d2, H2⟩, ⟨%d3, H3⟩, ⟨%d4, H4⟩⟩
      iapply (runC c Set.univ (grid1.coords t) _ _ _ _ _ _ _ _ _ _ _ _ hc0 hc1 (xblk V c t) (wblk V c t) (ablk V c t) (bblk V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · -- k = 1, 2
      have hc1 : ¬ cond1_1 (grid1.coords t) := fun h => h3 ((hcond1_1 t).mp h)
      rw [Dat.leavesExact_idle (dat1 V c) 4 t (idleAt1_4 t hc1) (noFlush1_4 t hc1)]
      iintro ⟨⟨HR, HS, Hg⟩, Ho, ⟨%d0, H0⟩, ⟨%d1, H1⟩, ⟨%d2, H2⟩, ⟨%d3, H3⟩, ⟨%d4, H4⟩⟩
      iapply (runB c Set.univ (grid1.coords t) _ _ _ _ _ _ _ _ _ _ _ _ hc0 hc1 (xblk V c t) (wblk V c t) (ablk V c t) (bblk V c t) ((dat1 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  unfold rest1
  iintro ⟨⟨HA, HB, HC, HD⟩, HS, Hg⟩
  isplitl [HA HB HC HD HS]
  · isplitl [HA]; · iexact HA
    isplitl [HB]; · iexact HB
    isplitl [HC]; · iexact HC
    isplitl [HD]; · iexact HD
    iexists _; iexact HS
  iexact Hg

end Cert.KernelIdeal.Hand

end
-- ==== Proof.KI.Run.lean ====
/-
  The run of @main: five stretches of host operations, the row-scale pallas_call, one reshape, the quantize-and-multiply
  pallas_call.  Between two items every unscoped buffer of the core is held at named contents: the launch memory, then
  each stretch's operations applied, and after a pallas_call its output array at what the pipeline's write-backs leave
  (`arrAt … N` of the region's proof data), every other buffer as the region found it.  Each pallas_call is a segment
  record over its proof data and body obligation; the generator register and the core owing nothing ride along.  Every
  weakly fair execution then ends with every unscoped buffer at the last boundary's contents: the arguments as
  launched, and the result array at region 1's `arrAt`.
-/
import proofs.«178924_j67053029425862_1_alg».proof.Proof.KI.Body0
import proofs.«178924_j67053029425862_1_alg».proof.Proof.KI.Body1
import proofs.«178924_j67053029425862_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region boundaries -/

/-- What region 0 is entered with, read at the TensorCore's references. -/
abbrev Ve0 : (c : Dev nD) → (b : Ref sig .tc) → Buf (Elt F) ((c : Thread nD τ).loc b) := fun c b => V5 m c b

/-- What region 0 leaves in its output array. -/
abbrev res0 (c : Dev nD) : Buf (Elt F) ((c : Thread nD τ).loc main_v10) := (dat0 (Ve0 m) c).arrAt 1 cfg0.N

/-- After region 0, and after the reshape that follows it. -/
abbrev U6 (c : Dev nD) : Valuation τ sig (Elt F) := Function.update (V5 m c) main_v10 (res0 m c)
abbrev U7 (c : Dev nD) : Valuation τ sig (Elt F) := StableHlo.after hostOps1 (U6 m c)

/-- What region 1 is entered with, read at the TensorCore's references. -/
abbrev Ve1 : (c : Dev nD) → (b : Ref sig .tc) → Buf (Elt F) ((c : Thread nD τ).loc b) := fun c b => U7 m c b

/-- What region 1 leaves in its output array: the program's result. -/
abbrev res1 (c : Dev nD) : Buf (Elt F) ((c : Thread nD τ).loc main_v12) := (dat1 (Ve1 m) c).arrAt 4 cfg1.N

/-- What each region leaves in the array it writes, as the family the boundary contents are written over. -/
def outs : Outs (F := F)
  | 6, r, c => Function.update (V5 m c) main_v10 (res0 m c) r
  | _, r, c => Function.update (U7 m c) main_v12 (res1 m c) r

theorem V6_eq (c : Dev nD) : V6 m (outs m) c = U6 m c := by
  unfold V6 U6 outs; simp only [Function.update_self]
theorem V7_eq (c : Dev nD) : V7 m (outs m) c = U7 m c := by
  unfold V7 U7; rw [V6_eq]
/-- The contents at the end. -/
abbrev U8 (c : Dev nD) : Valuation τ sig (Elt F) := Function.update (U7 m c) main_v12 (res1 m c)
theorem V8_eq (c : Dev nD) : V8 m (outs m) c = U8 m c := by
  unfold V8 U8; rw [V7_eq]; unfold outs; simp only [Function.update_self]

/-! ## Each region's arrays at its exit, every other buffer as entered -/

/-- The contents at region 0's and region 1's exits, read at the TensorCore's references. -/
abbrev Vx0 : (c : Dev nD) → (b : Ref sig .tc) → Buf (Elt F) ((c : Thread nD τ).loc b) := fun c b => U6 m c b
abbrev Vx1 : (c : Dev nD) → (b : Ref sig .tc) → Buf (Elt F) ((c : Thread nD τ).loc b) := fun c b => U8 m c b

theorem hF0_0 (c : Dev nD) : (dat0 (Ve0 m) c).arrAt 0 cfg0.N = Vx0 m c main_arg1 := by
  rw [(dat0 (Ve0 m) c).arrAt_in 0 rfl, A_eq0]
  exact (Function.update_of_ne (StableHlo.devRef_ne_of_ne (by decide) : (Proc.devRef .tc main_arg1 : DevRef τ sig) ≠ Proc.devRef .tc main_v10) _ _).symm
theorem hF0_1 (c : Dev nD) : (dat0 (Ve0 m) c).arrAt 1 cfg0.N = Vx0 m c main_v10 :=
  (Function.update_self (Proc.devRef .tc main_v10 : DevRef τ sig) (res0 m c) (V5 m c)).symm
theorem hF0 (c : Dev nD) (w : Fin cfg0.W) : (dat0 (Ve0 m) c).arrAt w cfg0.N = Vx0 m c (Pipeline.arrRef spec0 w) :=
  match w with
  | ⟨0, _⟩ => hF0_0 m c
  | ⟨1, _⟩ => hF0_1 m c

theorem hrest0 (c : Dev nD) : ∀ b : Ref sig .tc, b ∉ Finset.univ.image (Pipeline.arrRef spec0) → Vx0 m c b = Ve0 m c b := by
  intro b hb
  have hne : b ≠ main_v10 := fun e => hb (Finset.mem_image.mpr ⟨1, Finset.mem_univ _, e.symm⟩)
  exact Function.update_of_ne (StableHlo.devRef_ne_of_ne hne) _ _

theorem hF1_0 (c : Dev nD) : (dat1 (Ve1 m) c).arrAt 0 cfg1.N = Vx1 m c main_v9 := by
  rw [(dat1 (Ve1 m) c).arrAt_in 0 rfl, A_eq1]
  exact (Function.update_of_ne (StableHlo.devRef_ne_of_ne (by decide) : (Proc.devRef .tc main_v9 : DevRef τ sig) ≠ Proc.devRef .tc main_v12) _ _).symm
theorem hF1_1 (c : Dev nD) : (dat1 (Ve1 m) c).arrAt 1 cfg1.N = Vx1 m c main_arg1 := by
  rw [(dat1 (Ve1 m) c).arrAt_in 1 rfl, A_eq1]
  exact (Function.update_of_ne (StableHlo.devRef_ne_of_ne (by decide) : (Proc.devRef .tc main_arg1 : DevRef τ sig) ≠ Proc.devRef .tc main_v12) _ _).symm
theorem hF1_2 (c : Dev nD) : (dat1 (Ve1 m) c).arrAt 2 cfg1.N = Vx1 m c main_v10 := by
  rw [(dat1 (Ve1 m) c).arrAt_in 2 rfl, A_eq1]
  exact (Function.update_of_ne (StableHlo.devRef_ne_of_ne (by decide) : (Proc.devRef .tc main_v10 : DevRef τ sig) ≠ Proc.devRef .tc main_v12) _ _).symm
theorem hF1_3 (c : Dev nD) : (dat1 (Ve1 m) c).arrAt 3 cfg1.N = Vx1 m c main_v11 := by
  rw [(dat1 (Ve1 m) c).arrAt_in 3 rfl, A_eq1]
  exact (Function.update_of_ne (StableHlo.devRef_ne_of_ne (by decide) : (Proc.devRef .tc main_v11 : DevRef τ sig) ≠ Proc.devRef .tc main_v12) _ _).symm
theorem hF1_4 (c : Dev nD) : (dat1 (Ve1 m) c).arrAt 4 cfg1.N = Vx1 m c main_v12 :=
  (Function.update_self (Proc.devRef .tc main_v12 : DevRef τ sig) (res1 m c) (U7 m c)).symm
theorem hF1 (c : Dev nD) (w : Fin cfg1.W) : (dat1 (Ve1 m) c).arrAt w cfg1.N = Vx1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c

theorem hrest1 (c : Dev nD) : ∀ b : Ref sig .tc, b ∉ Finset.univ.image (Pipeline.arrRef spec1) → Vx1 m c b = Ve1 m c b := by
  intro b hb
  have hne : b ≠ main_v12 := fun e => hb (Finset.mem_image.mpr ⟨4, Finset.mem_univ _, e.symm⟩)
  exact Function.update_of_ne (StableHlo.devRef_ne_of_ne hne) _ _

/-! ## The proof data family and what rides along -/

/-- Each pallas_call's proof data at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The row-scale pallas_call: entered with every unscoped buffer at the contents after the host prefix, left with
    its output array at `res0`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantize-and-multiply pallas_call: entered after the reshape, left with the result array at `res1`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ve1 m) c); unfold Pipeline.ΦA
    iintro ⟨Hp, -, Hr⟩
    isplitl [Hr]; · iexact Hr
    iexact Hp
  hout c := by
    rw [Pipeline.ownSems0_none]; refine (hout1 (Ve1 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch over @main's segments -/

-- the launch theorem's implicit arguments are found by unifying its conclusion with this one
set_option backward.isDefEq.respectTransparency.types false in
/-- From one segment record per pallas_call, entered and left at the boundary contents, every weakly fair execution of
    @main ends with every unscoped buffer of every core at the last boundary's contents: @main is the list of its eight
    items, each host stretch a segment from its boundary's contents, consecutive segments chained by those contents, and
    at the end every held buffer is read against the final memory. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V8 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, .rfl, .rfl, hpre0 c, hpost0 c, hpre1 c, (hpost1 c).trans (sep_mono .rfl (hE2 c))⟩)
    (hinit := ?_) (QY := fun c s => ∀ b ∈ Pipeline.ucRefs τ sig, s.mem (((c : Thread nD τ)).1, b) = V8 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro; exact h
    · iexact HSI

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the launch deals a core besides its buffers gives the generator register at some state and the core owing nothing. -/
theorem launch_rest (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ emp) : sProp 𝕄) ⊢ R (F := F) c := by
  iintro ⟨-, HO, -, Hp, -⟩
  isplitl [Hp]; · iexists _; iexact Hp
  iexists ∅; iexact HO

set_option backward.isDefEq.respectTransparency.types false in
/-- THE RUN: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) :=
  run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R (F := F) c)
    (by
      have hm : (bigSep Finset.univ fun c : Dev nD => (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄))
          ⊢ (bigSep Finset.univ fun c : Dev nD => R (F := F) c : sProp 𝕄) :=
        bigSep_mono fun c _ => launch_rest ρ c
      iintro ⟨H, -⟩
      imodintro
      iapply hm
      iexact H)
    (fun c => by iintro ⟨-, H⟩; iexact H)
    (reg0 m) (fun c => .rfl) (fun c => by rw [V6_eq]; exact .rfl)
    (reg1 m) (fun c => by rw [V7_eq]; exact .rfl) (fun c => by rw [V8_eq]; exact .rfl)

/-- The result array at the end is what region 1 leaves. -/
theorem V8_result (c : Dev nD) : V8 m (outs m) c main_v12 = res1 m c := by
  rw [V8_eq]; exact Function.update_self ..

/-- THE FRAME: every weakly fair execution of @main terminates, nothing faulting, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c)⟩) (run_all m ρ)

/-- THE RUN WITH THE RESULT NAMED: the same, and the result array ends at `res1`. -/
theorem run_value : θ_run defs (onTc (τ := τ) (main (F := F))) ⟨m, fun _ => 0, ρ⟩ (fun r => ∀ c : Dev nD,
      r.2.mem ((c.tc : Thread nD τ).loc main_v12) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v12 (by decide))).trans (V8_result m c),
     (h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c)⟩) (run_all m ρ)

end Cert.KernelIdeal.Hand

end
-- ==== Proof.Val.Spec.lean ====
/-
  What both programs compute, as one function of the argument arrays over the extended reals.

  With xq the fake-quantized activations (16 × 8192), w the weight (8192 × 8192) and b the bias (8192):
    alpha w o    = max( (Σ_i |w[o,i]|) / 8192 , ε )                 the scale of weight row o
    tern v a     = min(1, max(-1, roundHalfEven(v / a))) · a          ternary quantization at scale a
    G xq w b r o = Σ_i xq[r,i] · tern (w[o,i]) (alpha w o)  +  b[o]   the linear layer on the quantized operands.
  |v| is max v (−v); the quotient is the extended reals' `Ideal.div`; the literals are kept as their f32 words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![16, 8192]⟩
abbrev SW : Shape := ⟨2, ![8192, 8192]⟩
abbrev SB : Shape := ⟨1, ![8192]⟩

/-- The scale of weight row `o`: the mean of the row's absolute values, floored by ε. -/
def alpha (w : FVec Ideal SW .f32) (o : Fin 8192) : EReal :=
  max (Ideal.div (∑ i : Fin 8192, max (w (ix2 o i)) (-(w (ix2 o i)))) (Ideal.ofBits .f32 0x46000000#32)) (Ideal.ofBits .f32 0x322BCC77#32)

/-- Ternary quantization of `v` at scale `a`. -/
def tern (v a : EReal) : EReal :=
  min (Ideal.ofBits .f32 0x3F800000#32) (max (Ideal.ofBits .f32 0xBF800000#32) (Ideal.liftRound Ideal.roundHalfEven (Ideal.div v a))) * a

/-- The result at row `r`, column `o`. -/
def G (xq : FVec Ideal SX .f32) (w : FVec Ideal SW .f32) (b : FVec Ideal SB .f32) (r : Fin 16) (o : Fin 8192) : EReal :=
  (∑ i : Fin 8192, xq (ix2 r i) * tern (w (ix2 o i)) (alpha w o)) + b (ix1 o)

end Cert.Spec

end
-- ==== Proof.Val.Ref.lean ====
/-
  The reference program as the specification.

  The reference adds to each operand the difference between its quantized form and itself:
  x + (xq − x) and w + (wq − w). On the extended reals a + (b − a) = b for every b as soon as a
  is a real number, so under finite inputs the contraction is taken over xq and wq themselves.
  The quantized weight at (o, i) is the ternary quantization of w[o,i] at the scale of row o,
  where the scale is the mean of the row's absolute values floored by ε; the bias is read at the
  column. That is the function G of the specification, with the quantized activations kept as the
  reference's own stage.

  The second part reads the finiteness predicate back: each of its three conjuncts says that every
  entry's absolute value is below +∞, and an extended real whose absolute value is below +∞ is a
  real number.
-/
import proofs.«178924_j67053029425862_1_alg».proof.Proof.Gen.ReferenceIdeal.Read
import proofs.«178924_j67053029425862_1_alg».proof.Pre_finite_inputs
import proofs.«178924_j67053029425862_1_alg».proof.Proof.Gen.Pre_finite_inputs
import proofs.«178924_j67053029425862_1_alg».proof.Proof.Val.Spec
import Idealize.ShloMosaic.Lib.ReduceAll

noncomputable section

namespace Cert.RefValue

open Cert.ReferenceIdeal Cert.ReferenceIdeal.Read Idealize.ShloMosaic Idealize.ShloMosaic.ValueIdx

/-- a + (b − a) = b on the extended reals when a is a real number (b may be infinite). -/
theorem add_sub_cancel_of_real (a b : EReal) (h : ∃ r : ℝ, a = (r : EReal)) : a + (b - a) = b := by
  obtain ⟨r, rfl⟩ := h
  induction b using EReal.rec with
  | bot => simp
  | top => simp
  | coe b => rw [← EReal.coe_sub, ← EReal.coe_add]; congr 1; ring

/-- The row scale the reference computes, at row o, is the specification's scale of row o. -/
theorem scale_eq (x1 : FVec Ideal S8192x8192 .f32) (o : Fin 8192) (z : Fin 1) :
    val_main_v18 (F := Ideal) x1 (ix2 o z) = Cert.Spec.alpha x1 o := by
  have e (k : Fin 8192) : idx_main_v13 (idx_main_v14 (ix2 o z)) k = ix2 o k :=
    funext fun a => Fin.ext (by match a with | ⟨0, _⟩ => rfl | ⟨1, _⟩ => rfl)
  rw [val_main_v18_apply, val_main_v16_apply, val_main_v14_apply, val_main_v13_apply, val_main_v15_apply,
    val_main_v17_apply, val_main_cst_4_apply, val_main_cst_5_apply, val_main_cst_6_apply]
  simp only [e, val_main_v12_apply, Ideal.maximumf_def, Ideal.hostDivf_def, Ideal.hostAbsf_def, Ideal.ofBits_def,
    Ideal.ofBits_zero_f32, zero_add]
  rfl

/-- The reference's quantized weight at (o, i) is the ternary quantization of w[o,i] at the scale of row o. -/
theorem wq_eq (x1 : FVec Ideal S8192x8192 .f32) (o i : Fin 8192) :
    val_main_v24 (F := Ideal) x1 (ix2 o i) = Cert.Spec.tern (x1 (ix2 o i)) (Cert.Spec.alpha x1 o) := by
  have e19 : idx_main_v19 (ix2 o i) = ix2 o (0 : Fin 1) :=
    funext fun a => Fin.ext (by match a with | ⟨0, _⟩ => rfl | ⟨1, _⟩ => rfl)
  have e23 : idx_main_v23 (ix2 o i) = ix2 o (0 : Fin 1) :=
    funext fun a => Fin.ext (by match a with | ⟨0, _⟩ => rfl | ⟨1, _⟩ => rfl)
  rw [val_main_v24_apply, val_main_v22_apply, val_main_call3_v4_apply, val_main_call3_v3_apply, val_main_cst_8_apply,
    val_main_call3_v2_apply, val_main_call3_v1_apply, val_main_call3_v0_apply, val_main_cst_7_apply,
    val_main_v21_apply, val_main_v20_apply, val_main_v19_apply, val_main_v23_apply, e19, e23, scale_eq]
  simp only [Ideal.mulf_def, Ideal.minimumf_def, Ideal.maximumf_def, Ideal.hostUnary_roundeven_def, Ideal.hostDivf_def,
    Ideal.ofBits_def]
  rfl

/-- Under finite inputs the reference's result at (r, o) is the specification at the reference's own
    quantized activations. -/
theorem ref_value (x0 : FVec Ideal S16x8192 .f32) (x1 : FVec Ideal S8192x8192 .f32) (x2 : FVec Ideal S8192 .f32)
    (hx : ∀ i, ∃ r : ℝ, x0 i = (r : EReal)) (hw : ∀ i, ∃ r : ℝ, x1 i = (r : EReal)) (r : Fin 16) (o : Fin 8192) :
    val_main_v30 (F := Ideal) x0 x1 x2 (ix2 r o) = Cert.Spec.G (val_main_v9 (F := Ideal) x0) x1 x2 r o := by
  have eb : idx_main_v28 (idx_main_v29 (ix2 r o)) = ix1 o :=
    funext fun a => Fin.ext (by match a with | ⟨0, _⟩ => rfl)
  rw [val_main_v30_apply, val_main_v27_apply, val_main_v29_apply, val_main_v28_apply, eb]
  unfold Cert.Spec.G
  simp only [Ideal.addf_def]
  refine congrArg (· + x2 (ix1 o)) (Finset.sum_congr rfl fun k _ => ?_)
  have el : lidx_main_v27 (ix2 r o) k = ix2 r k :=
    funext fun a => Fin.ext (by match a with | ⟨0, _⟩ => rfl | ⟨1, _⟩ => rfl)
  have er : ridx_main_v27 (ix2 r o) k = ix2 o k :=
    funext fun a => Fin.ext (by match a with | ⟨0, _⟩ => rfl | ⟨1, _⟩ => rfl)
  rw [el, er, val_main_v11_apply, val_main_v10_apply, val_main_v26_apply, val_main_v25_apply, wq_eq]
  simp only [Ideal.addf_def, Ideal.subf_def]
  rw [add_sub_cancel_of_real _ _ (hx _), add_sub_cancel_of_real _ _ (hw _)]

/-! ## The finiteness predicate read back -/

instance : Subsingleton Cert.Pre_finite_inputs.S_.Idx := ⟨fun a b => funext fun d => d.elim0⟩

/-- An extended real whose absolute value compares below the word of +∞ is a real number. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

theorem finite_of_pre (a0 : FVec Ideal Cert.Pre_finite_inputs.S16x8192 .f32)
    (a1 : FVec Ideal Cert.Pre_finite_inputs.S8192x8192 .f32) (a2 : FVec Ideal Cert.Pre_finite_inputs.S8192 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨hh0, hh1⟩ := IntOp.andi_eq_one.1 h01
  refine ⟨fun i => ?_, fun i => ?_, fun i => ?_⟩
  · have hi := Host.reduce_andi_all _ _ _ _ ix0 hh0 i
    rw [cmpf_apply, broadcastInDim_apply _ _ _ i ix0 (fun a => a.elim0)] at hi
    exact real_of_abs_lt _ hi
  · have hi := Host.reduce_andi_all _ _ _ _ ix0 hh1 i
    rw [cmpf_apply, broadcastInDim_apply _ _ _ i ix0 (fun a => a.elim0)] at hi
    exact real_of_abs_lt _ hi
  · have hi := Host.reduce_andi_all _ _ _ _ ix0 h2 i
    rw [cmpf_apply, broadcastInDim_apply _ _ _ i ix0 (fun a => a.elim0)] at hi
    exact real_of_abs_lt _ hi

end Cert.RefValue

end
-- ==== Proof.Val.K0.lean ====
/-
  The two value facts of the kernel's program that sit outside the matrix product.

  (1) The first kernel region, a grid of 32 points: point t reads rows 256·t … 256·t + 255 of the weight and writes
      rows 256·t … 256·t + 255 of an 8192 × 1 column; each written entry is max((Σ_i |w[row, i]|) / 8192, ε).  So after
      the region the column holds, at row o, the scale `alpha w o` of weight row o: every row lies in the block of the
      point o / 256, and what each point writes is its block of that one column.

  (2) The host operations before and between the regions, as values: the activations are replaced by
      hostXQ x = min(127, max(-127, roundHalfEven(x · s))) / s with s = 127 / max(max|x|, ε); the weight and the bias are
      not written; the bias is re-laid as a 1 × 8192 row; and the reference applies the same chain to its activations.
-/
import proofs.«178924_j67053029425862_1_alg».proof.Proof.KI.Data
import proofs.«178924_j67053029425862_1_alg».proof.Proof.Val.Spec
import proofs.«178924_j67053029425862_1_alg».proof.Proof.Gen.KernelIdeal.Regions
import proofs.«178924_j67053029425862_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.TcCoe
open Idealize.SL.Sem
open Idealize.ShloMosaic.Pipeline (Dat)

/-! ## The first kernel region: the row scales of the weight -/

/-- A vector of `a` entries cast to a column `[a, 1]` reads, at `(i, u)`, the entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a 256×8192 block at row `p`: the sum over the row's 8192 entries. -/
theorem rowsum_apply (y : FVec Ideal S256x8192 .f32) (h : S256x8192.Reduces [1] S256) (hφ : FKind.Formats .f32)
    (hacc : (0x00000000#32 : BitVec 32) = FKind.add.neutral .f32 hφ) (p : Fin 256) :
    multiReduction .add [1] S256 y 0x00000000#32 h hφ hacc (ix1 p) = ∑ i : Fin 8192, y (ix2 p i) := by
  refine (Ideal.multiReduction_add_single y 0x00000000#32 h hφ hacc (ix1 p)).trans ?_
  refine Finset.sum_congr rfl fun k _ => congrArg y ?_
  funext a
  match a with
  | ⟨0, _⟩ => exact Fin.ext rfl
  | ⟨1, _⟩ => exact Fin.ext rfl

/-- The body's payload at row `p` of its block: the mean of the row's absolute values, floored by ε. -/
theorem k0_pay1_apply (x0 : Vec Ideal S256x8192 .f32) (p : Fin 256) :
    k0_pay1 (F := Ideal) x0 (ix2 p 0)
      = max (Ideal.div (∑ i : Fin 8192, max (x0 (ix2 p i)) (-(x0 (ix2 p i)))) (Ideal.ofBits .f32 0x46000000#32)) (Ideal.ofBits .f32 0x322BCC77#32) := by
  unfold k0_pay1
  refine congrArg (fun z => max (Ideal.div z (Ideal.ofBits .f32 0x46000000#32)) (Ideal.ofBits .f32 0x322BCC77#32)) ?_
  refine (shapeCast_a_a1_apply _ _ p 0).trans ?_
  exact rowsum_apply (absf x0) _ _ _ p

/-- So when row `p` of the block is row `o` of a weight array, the payload there is that row's scale. -/
theorem k0_pay1_eq_alpha (x0 : Vec Ideal S256x8192 .f32) (W : FVec Ideal Cert.Spec.SW .f32) (p : Fin 256) (o : Fin 8192)
    (hrow : ∀ i : Fin 8192, x0 (ix2 p i) = W (ix2 o i)) :
    k0_pay1 (F := Ideal) x0 (ix2 p 0) = Cert.Spec.alpha W o := by
  rw [k0_pay1_apply]
  unfold Cert.Spec.alpha
  simp only [hrow]

/-- The row scales of a whole weight array, as the column the first call's output array holds. -/
def alphaCol (W : FVec Ideal Cert.Spec.SW .f32) : FVec Ideal S8192x1 .f32 := fun i => Cert.Spec.alpha W (i 0)

/-- The printed index maps over the grid: point `t` reads block row `t` of the weight and writes block row `t` of the column. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The weight block point `t` reads is rows `256·t … 256·t + 255` of the weight. -/
theorem wrows_apply (c : Dev nD) (t : Fin cfg0.N) (x : S256x8192.Idx) (k : S8192x8192.Idx)
    (hk0 : (k 0).val = 256 * t.val + (x 0).val) (hk1 : (k 1).val = (x 1).val) :
    (wrows V c t) x = (V c main_arg1 : S8192x8192.Idx → Elt Ideal .f32) k := by
  obtain ⟨e0, e1, -, -⟩ := idx_facts0 t
  unfold wrows iblk0
  rw [View.read_apply]
  show V c main_arg1 _ = V c main_arg1 _
  congr 1
  funext a
  apply Fin.ext
  match a with
  | ⟨0, _⟩ => show win0_0.index t 0 * 256 + 1 * (x 0).val = (k 0).val; rw [e0, hk0]; omega
  | ⟨1, _⟩ => show win0_0.index t 1 * 8192 + 1 * (x 1).val = (k 1).val; rw [e1, hk1]; omega

/-- What point `t` writes back is block `t` of the column of row scales. -/
theorem flushed0_eq (c : Dev nD) (t : Fin cfg0.N) :
    (dat0 V c).flushed 1 t = ((cfg0.win 1).blk t).view.read (Elt Ideal) (alphaCol (V c main_arg1)) := by
  show (cfg0.win 1).cut (grid0.coords t) ((dat0 V c).after 1 t) = _
  rw [after0_1]
  obtain ⟨-, -, e2, e3⟩ := idx_facts0 t
  have hN : cfg0.N = 32 := N_0
  have ht : t.val < 32 := hN ▸ t.isLt
  funext j
  have hj0 : (j 0).val < 256 := (j 0).isLt
  have hj1 : (j 1).val < 1 := (j 1).isLt
  rw [View.read_apply]
  show k0_pay1 (wrows V c t) (ix2 (⟨(j 0).val, hj0⟩ : Fin 256) (⟨(j 1).val, hj1⟩ : Fin 1)) = alphaCol (V c main_arg1) (((cfg0.win 1).blk t).view.emb j)
  rw [show (⟨(j 1).val, hj1⟩ : Fin 1) = 0 from Subsingleton.elim _ _]
  refine (k0_pay1_eq_alpha (wrows V c t) (V c main_arg1) ⟨(j 0).val, hj0⟩ ⟨256 * t.val + (j 0).val, by omega⟩ fun i => ?_).trans ?_
  · exact wrows_apply V c t _ _ rfl rfl
  · unfold alphaCol
    refine congrArg (Cert.Spec.alpha (V c main_arg1)) (Fin.ext ?_)
    show 256 * t.val + (j 0).val = win0_1.index t 0 * 256 + 1 * (j 0).val
    rw [e2]; omega

/-- An index of the column is in point `t`'s block iff each coordinate is in the block's range on its axis. -/
theorem mem_blk0 (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v10).slice (win0_1.rect t)).set ↔ _
  rw [View.set_slice_whole, Rect.mem_set_unit]
  exact Iff.rfl

/-- Every row of the column is in the block of the point `row / 256`. -/
theorem cover_rows0 (i : S8192x1.Idx) : ∃ t : Fin cfg0.N, (cfg0.win 1).flush t = true ∧ i ∈ ((cfg0.win 1).blk t).view.set := by
  have hN : cfg0.N = 32 := N_0
  have hi0 : (i 0).val < 8192 := (i 0).isLt
  have hi1 : (i 1).val < 1 := (i 1).isLt
  refine ⟨⟨(i 0).val / 256, by rw [hN]; omega⟩, flush0_1 _, ?_⟩
  rw [mem_blk0]
  obtain ⟨-, -, e2, e3⟩ := idx_facts0 ⟨(i 0).val / 256, by rw [hN]; omega⟩
  intro a
  match a with
  | ⟨0, _⟩ =>
    show win0_1.index _ (0 : Fin 2) * 256 ≤ (i 0).val ∧ (i 0).val < win0_1.index _ (0 : Fin 2) * 256 + 256
    rw [e2]; show (i 0).val / 256 * 256 ≤ (i 0).val ∧ (i 0).val < (i 0).val / 256 * 256 + 256; omega
  | ⟨1, _⟩ =>
    show win0_1.index _ (1 : Fin 2) * 1 ≤ (i 1).val ∧ (i 1).val < win0_1.index _ (1 : Fin 2) * 1 + 1
    rw [e3]; omega

/-- THE VALUE OF THE FIRST CALL: its output array ends holding, at row `o`, the scale of weight row `o`. -/
theorem region0_value (c : Dev nD) (o : Fin 8192) :
    (dat0 V c).arrAt 1 cfg0.N (ix2 o 0) = Cert.Spec.alpha (V c main_arg1) o := by
  rw [(dat0 V c).arrAt_eq_of_cover 1 (alphaCol (V c main_arg1)) (fun t _ => flushed0_eq V c t) cover_rows0]
  rfl

/-! ## The host operations of @main as values -/

/-- The activation scale of the host chain: 127 / max(max over all entries of |x|, ε), a scalar. -/
def hostScale (x : FVec Ideal S16x8192 .f32) : FVec Ideal S_ .f32 :=
  Host.divf (F := Ideal) (constant (F := Ideal) S_ .f32 0x42FE0000#32)
    (maximumf
      (Host.reduce FloatOps.maximumf (Host.absf (F := Ideal) x) (constant (F := Ideal) S_ .f32 0xFF800000#32) reducesTo_S16x8192_S_d0_1 h_S_)
      (constant (F := Ideal) S_ .f32 0x322BCC77#32))

/-- THE FAKE-QUANTIZED ACTIVATIONS the host chain leaves: with s the scale above,
    min(127, max(-127, roundHalfEven(x · s))) / s, entry by entry. -/
def hostXQ (x : FVec Ideal S16x8192 .f32) : FVec Ideal S16x8192 .f32 :=
  Host.divf (F := Ideal)
    (minimumf (broadcastInDim S16x8192 ![] bcast_S_S16x8192 (id (constant (F := Ideal) S_ .f32 0x42FE0000#32)))
      (maximumf (broadcastInDim S16x8192 ![] bcast_S_S16x8192 (id (constant (F := Ideal) S_ .f32 0xC2FE0000#32)))
        (Host.roundeven (F := Ideal) (mulf x (broadcastInDim S16x8192 ![] bcast_S_S16x8192 (hostScale x))))))
    (broadcastInDim S16x8192 ![] bcast_S_S16x8192 (hostScale x))

variable (m : (ℓ : Loc nD τ sig) → Buf (Elt Ideal) ℓ) (outs : Outs (F := Ideal))

/-- Before the first kernel region the activations' buffer holds the fake-quantized activations of the argument. -/
theorem V5_main_v9 (c : Dev nD) : V5 m c main_v9 = hostXQ (m ((c.tc : Thread nD τ).loc main_arg0)) := by
  dsimp only [V5, V4, V3, V2, V1, V0, hostOps0, hostOps0_1, hostOps0_2, hostOps0_3, hostOps0_4]
  after_results
  unfold hostXQ hostScale
  dsimp only [StableHlo.TRef.toBuf, StableHlo.TRef.ofBuf, id]
  simp only [cast_eq]

/-- No host operation writes the weight. -/
theorem V5_main_arg1 (c : Dev nD) : V5 m c main_arg1 = m ((c.tc : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide)).trans rfl

/-- Nor the bias. -/
theorem V6_main_arg2 (c : Dev nD) : V6 m outs c main_arg2 = m ((c.tc : Thread nD τ).loc main_arg2) :=
  (V6_of m outs c main_arg2 (by decide)).trans <| (V5_of m c main_arg2 (by decide)).trans <| (V4_of m c main_arg2 (by decide)).trans <|
    (V3_of m c main_arg2 (by decide)).trans <| (V2_of m c main_arg2 (by decide)).trans <| (V1_of m c main_arg2 (by decide)).trans rfl

/-- Before the second kernel region the bias row holds the bias: entry `(0, o)` is entry `o`. -/
theorem V7_main_v11 (c : Dev nD) (o : Fin 8192) :
    (V7 m outs c main_v11 : FVec Ideal S1x8192 .f32) (ix2 0 o) = (m ((c.tc : Thread nD τ).loc main_arg2) : FVec Ideal S8192 .f32) (ix1 o) := by
  have e : (V7 m outs c main_v11 : FVec Ideal S1x8192 .f32)
      = shapeCast S1x8192 (V6 m outs c main_arg2 : FVec Ideal S8192 .f32) shapeCasts_S8192_S1x8192 := by
    dsimp only [V7, hostOps1]
    after_results
    rfl
  rw [e, V6_main_arg2]
  exact shapeCast_a_1a_apply _ _ 0 o

theorem V7_main_v9 (c : Dev nD) : V7 m outs c main_v9 = V5 m c main_v9 :=
  (V7_of m outs c main_v9 (by decide)).trans (V6_of m outs c main_v9 (by decide))

theorem V7_main_arg1 (c : Dev nD) : V7 m outs c main_arg1 = m ((c.tc : Thread nD τ).loc main_arg1) :=
  (V7_of m outs c main_arg1 (by decide)).trans <| (V6_of m outs c main_arg1 (by decide)).trans (V5_main_arg1 m c)

theorem V7_main_v10 (c : Dev nD) : V7 m outs c main_v10 = outs 6 main_v10 c :=
  (V7_of m outs c main_v10 (by decide)).trans (Function.update_self _ _ _)

/-- The reference runs the same host operations on the activations: one term. -/
theorem hostXQ_eq_ref (x : FVec Ideal S16x8192 .f32) : hostXQ x = Cert.ReferenceIdeal.Read.val_main_v9 (F := Ideal) x := by
  unfold hostXQ hostScale
  unfold Cert.ReferenceIdeal.Read.val_main_v9 Cert.ReferenceIdeal.Read.val_main_v8 Cert.ReferenceIdeal.Read.val_main_v7
    Cert.ReferenceIdeal.Read.val_main_call1_v4 Cert.ReferenceIdeal.Read.val_main_call1_v3 Cert.ReferenceIdeal.Read.val_main_cst_3
    Cert.ReferenceIdeal.Read.val_main_call1_v2 Cert.ReferenceIdeal.Read.val_main_call1_v1 Cert.ReferenceIdeal.Read.val_main_call1_v0
    Cert.ReferenceIdeal.Read.val_main_cst_2 Cert.ReferenceIdeal.Read.val_main_v6 Cert.ReferenceIdeal.Read.val_main_v5
    Cert.ReferenceIdeal.Read.val_main_v4 Cert.ReferenceIdeal.Read.val_main_v3 Cert.ReferenceIdeal.Read.val_main_cst_1
    Cert.ReferenceIdeal.Read.val_main_v2 Cert.ReferenceIdeal.Read.val_main_cst_0 Cert.ReferenceIdeal.Read.val_main_v1
    Cert.ReferenceIdeal.Read.val_main_cst Cert.ReferenceIdeal.Read.val_main_v0
  rfl

end Cert.KernelIdeal.Hand

end
-- ==== Proof.Val.K1.lean ====
/-
  The value of region 1 (the second kernel region: the quantized linear layer), read at an index.

  The grid is 8 × 4, point t = 4·ob + k.  At point t the body adds into a 16 × 1024 accumulator the product of the
  activation block (16 × 2048, contraction block k) with the transposed ternary quantization of the weight block
  (1024 × 2048, rows 1024·ob …, contraction block k) at the rows' scales; the accumulator is zero before the points with
  k = 0, and at the points with k = 3 the output block (16 × 1024, columns 1024·ob …) is the accumulator plus the bias row.

  So at (r, j) the accumulator after point 4·ob + 3 is  0 + Q₀ + Q₁ + Q₂ + Q₃  with
      Q_s = Σ_{i < 2048} xq[r, 2048·s + i] · tern (w[o, 2048·s + i]) (al[o, 0]),   o = 1024·ob + j,
  which is  Σ_{i < 8192} xq[r, i] · tern (w[o, i]) (al[o, 0])  (a sum over 8192 indices is the sum of its four quarters),
  and the output array, whose blocks the points with k = 3 write and which they cover, ends holding at (r, o)
      Σ_i xq[r, i] · tern (w[o, i]) (al[o, 0]) + b[0, o].
-/
import proofs.«178924_j67053029425862_1_alg».proof.Proof.KI.Data
import proofs.«178924_j67053029425862_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.TcCoe
open Idealize.SL.Sem
open scoped BigOperators

/-! ## The payloads at an index -/

/-- The reset value of the accumulator is zero everywhere. -/
theorem pay1_apply (r : Fin 16) (j : Fin 1024) : (k1_pay1 (F := Ideal)) (ix2 r j) = 0 := by
  unfold k1_pay1
  rw [shapeCast_self]
  exact Ideal.ofBits_zero_f32

abbrev D1 := dot_S16x2048_S1024x2048_S16x1024_1_1_0_0_n_n

theorem lhs_D1_0 (i : S16x1024.Idx) (q : D1.contr.Idx) : (D1.lhsIdx i q 0).val = (i 0).val := by
  unfold DotDims.lhsIdx
  rw [dif_neg (show ¬(0 : Fin S16x2048.rank) ∈ D1.lhsBatch by decide), dif_pos (show (0 : Fin S16x2048.rank) ∈ D1.lhsNonContracting by decide)]
  rfl
theorem lhs_D1_1 (i : S16x1024.Idx) (q : D1.contr.Idx) : (D1.lhsIdx i q 1).val = (q ⟨0, by decide⟩).val :=
  D1.lhsIdx_val_of_single rfl i q
theorem rhs_D1_0 (i : S16x1024.Idx) (q : D1.contr.Idx) : (D1.rhsIdx i q 0).val = (i 1).val := by
  unfold DotDims.rhsIdx
  rw [dif_neg (show ¬(0 : Fin S1024x2048.rank) ∈ D1.rhsBatch by decide), dif_pos (show (0 : Fin S1024x2048.rank) ∈ D1.rhsNonContracting by decide)]
  rfl
theorem rhs_D1_1 (i : S16x1024.Idx) (q : D1.contr.Idx) : (D1.rhsIdx i q 1).val = (q ⟨0, by decide⟩).val :=
  D1.rhsIdx_val_of_single rfl i q

/-- The product of the two blocks at (r, j): the sum over the block's 2048 contraction positions. -/
theorem matmul_D1_apply (lhs : FVec Ideal S16x2048 .bf16) (rhs : FVec Ideal S1024x2048 .bf16) (r : Fin 16) (j : Fin 1024) :
    FloatOps.matmul D1 none lhs rhs (constant S16x1024 .f32 0x00000000#32) (ix2 r j)
      = ∑ i : Fin 2048, lhs (ix2 r i) * rhs (ix2 j i) := by
  rw [Ideal.matmul_constant_zero_apply, ← Equiv.sum_comp (contrEquiv1 D1 2048 rfl rfl).symm]
  refine Finset.sum_congr rfl fun k _ => ?_
  have hk := contrEquiv1_symm_val D1 2048 rfl rfl k
  have el : D1.lhsIdx (ix2 r j) ((contrEquiv1 D1 2048 rfl rfl).symm k) = ix2 r k := funext fun a => Fin.ext (by
    match a with
    | ⟨0, _⟩ => exact lhs_D1_0 _ _
    | ⟨1, _⟩ => exact (lhs_D1_1 _ _).trans hk)
  have er : D1.rhsIdx (ix2 r j) ((contrEquiv1 D1 2048 rfl rfl).symm k) = ix2 j k := funext fun a => Fin.ext (by
    match a with
    | ⟨0, _⟩ => exact rhs_D1_0 _ _
    | ⟨1, _⟩ => exact (rhs_D1_1 _ _).trans hk)
  rw [el, er]

/-- One point's step of the accumulator at (r, j): what was there plus the product of the activation block's row r
    with the ternary quantization of the weight block's row j at that row's scale. -/
theorem pay2_apply (v3 : Vec Ideal S1024x2048 .f32) (v4 : Vec Ideal S1024x1 .f32) (v16 : Vec Ideal S16x2048 .f32)
    (v19 : Vec Ideal S16x1024 .f32) (r : Fin 16) (j : Fin 1024) :
    k1_pay2 v3 v4 v16 v19 (ix2 r j)
      = v19 (ix2 r j) + ∑ i : Fin 2048, v16 (ix2 r i) * Cert.Spec.tern (v3 (ix2 j i)) (v4 (ix2 j (0 : Fin 1))) := by
  unfold k1_pay2
  simp only [shapeCast_self]
  rw [addf_apply]
  congr 1
  simp only [matmul]
  rw [matmul_D1_apply]
  refine Finset.sum_congr rfl fun i _ => ?_
  rw [truncf_apply, truncf_apply, mulf_apply, minimumf_apply, maximumf_apply]
  have hb : broadcastTo S1024x2048 v4 broadcasts_S1024x1_S1024x2048 (ix2 j i) = v4 (ix2 j (0 : Fin 1)) :=
    broadcastTo_apply v4 _ (ix2 j i) (ix2 j (0 : Fin 1)) fun ax => by
      match ax with
      | ⟨0, _⟩ => rfl
      | ⟨1, _⟩ => rfl
  rw [hb]
  show v16 (ix2 r i) * (min (Ideal.ofBits .f32 0x3F800000#32) (max (Ideal.ofBits .f32 0xBF800000#32)
      (Ideal.liftRound Ideal.roundHalfEven (Ideal.div (v3 (ix2 j i)) (broadcastTo S1024x2048 v4 broadcasts_S1024x1_S1024x2048 (ix2 j i)))))
      * v4 (ix2 j (0 : Fin 1))) = _
  rw [hb]
  rfl

/-- The flushed block at (r, j): the accumulator plus the bias entry of column j. -/
theorem pay3_apply (v28 : Vec Ideal S16x1024 .f32) (v29 : Vec Ideal S1x1024 .f32) (r : Fin 16) (j : Fin 1024) :
    k1_pay3 v28 v29 (ix2 r j) = v28 (ix2 r j) + v29 (ix2 (0 : Fin 1) j) := by
  unfold k1_pay3
  simp only [shapeCast_self]
  rw [addf_apply, broadcastTo_1b_ab_apply]

/-! ## The blocks a point reads, as array reads -/

/-- The windows' block indices at point t = 4·ob + k, for every point of the grid: the activations move with k, the weight
    with (ob, k), the row scales, the bias and the output with ob. -/
theorem idx1 : ∀ t : Fin cfg1.N,
    win1_0.index t (0 : Fin 2) = 0 ∧ win1_0.index t (1 : Fin 2) = t.val % 4
    ∧ win1_1.index t (0 : Fin 2) = t.val / 4 ∧ win1_1.index t (1 : Fin 2) = t.val % 4
    ∧ win1_2.index t (0 : Fin 2) = t.val / 4 ∧ win1_2.index t (1 : Fin 2) = 0
    ∧ win1_3.index t (0 : Fin 2) = 0 ∧ win1_3.index t (1 : Fin 2) = t.val / 4
    ∧ win1_4.index t (0 : Fin 2) = 0 ∧ win1_4.index t (1 : Fin 2) = t.val / 4 :=
  (by decide +kernel : ∀ t : Fin grid1.N, _)

theorem N1 : cfg1.N = 32 := N_1

variable (V : (c : Dev nD) → (b : Ref sig .tc) → Buf (Elt Ideal) ((c : Thread nD τ).loc b))

/-- The quantized activations, the weight, the row scales and the bias row as the region finds them. -/
abbrev Xq (c : Dev nD) : FVec Ideal S16x8192 .f32 := V c main_v9
abbrev Wt (c : Dev nD) : FVec Ideal S8192x8192 .f32 := V c main_arg1
abbrev Al (c : Dev nD) : FVec Ideal S8192x1 .f32 := V c main_v10
abbrev Bi (c : Dev nD) : FVec Ideal S1x8192 .f32 := V c main_v11

theorem xblk_apply (c : Dev nD) (t : Fin cfg1.N) (r : Fin 16) (i : Fin 2048) (i' : Fin 8192)
    (hi : i'.val = 2048 * (t.val % 4) + i.val) : xblk V c t (ix2 r i) = Xq V c (ix2 r i') := by
  obtain ⟨e0, e1, -⟩ := idx1 t
  show V c main_v9 (((cfg1.win 0).blk t).view.emb (ix2 r i)) = V c main_v9 (ix2 r i')
  congr 1
  funext a; apply Fin.ext
  match a with
  | ⟨0, _⟩ => show win1_0.index t (0 : Fin 2) * 16 + 1 * r.val = r.val; rw [e0]; omega
  | ⟨1, _⟩ => show win1_0.index t (1 : Fin 2) * 2048 + 1 * i.val = i'.val; rw [e1]; omega

theorem wblk_apply (c : Dev nD) (t : Fin cfg1.N) (j : Fin 1024) (i : Fin 2048) (o i' : Fin 8192)
    (ho : o.val = 1024 * (t.val / 4) + j.val) (hi : i'.val = 2048 * (t.val % 4) + i.val) :
    wblk V c t (ix2 j i) = Wt V c (ix2 o i') := by
  obtain ⟨-, -, e0, e1, -⟩ := idx1 t
  show V c main_arg1 (((cfg1.win 1).blk t).view.emb (ix2 j i)) = V c main_arg1 (ix2 o i')
  congr 1
  funext a; apply Fin.ext
  match a with
  | ⟨0, _⟩ => show win1_1.index t (0 : Fin 2) * 1024 + 1 * j.val = o.val; rw [e0]; omega
  | ⟨1, _⟩ => show win1_1.index t (1 : Fin 2) * 2048 + 1 * i.val = i'.val; rw [e1]; omega

theorem ablk_apply (c : Dev nD) (t : Fin cfg1.N) (j : Fin 1024) (o : Fin 8192)
    (ho : o.val = 1024 * (t.val / 4) + j.val) :
    ablk V c t (ix2 j (0 : Fin 1)) = Al V c (ix2 o (0 : Fin 1)) := by
  obtain ⟨-, -, -, -, e0, e1, -⟩ := idx1 t
  show V c main_v10 (((cfg1.win 2).blk t).view.emb (ix2 j (0 : Fin 1))) = V c main_v10 (ix2 o (0 : Fin 1))
  congr 1
  funext a; apply Fin.ext
  match a with
  | ⟨0, _⟩ => show win1_2.index t (0 : Fin 2) * 1024 + 1 * j.val = o.val; rw [e0]; omega
  | ⟨1, _⟩ => show win1_2.index t (1 : Fin 2) * 1 + 1 * 0 = 0; rw [e1]

theorem bblk_apply (c : Dev nD) (t : Fin cfg1.N) (j : Fin 1024) (o : Fin 8192)
    (ho : o.val = 1024 * (t.val / 4) + j.val) :
    bblk V c t (ix2 (0 : Fin 1) j) = Bi V c (ix2 (0 : Fin 1) o) := by
  obtain ⟨-, -, -, -, -, -, e0, e1, -⟩ := idx1 t
  show V c main_v11 (((cfg1.win 3).blk t).view.emb (ix2 (0 : Fin 1) j)) = V c main_v11 (ix2 (0 : Fin 1) o)
  congr 1
  funext a; apply Fin.ext
  match a with
  | ⟨0, _⟩ => show win1_3.index t (0 : Fin 2) * 1 + 1 * 0 = 0; rw [e0]
  | ⟨1, _⟩ => show win1_3.index t (1 : Fin 2) * 1024 + 1 * j.val = o.val; rw [e1]; omega

/-! ## The accumulator -/

/-- The product term of output (r, o) at contraction index i. -/
def term (c : Dev nD) (r : Fin 16) (o : Fin 8192) (i : Fin 8192) : EReal :=
  Xq V c (ix2 r i) * Cert.Spec.tern (Wt V c (ix2 o i)) (Al V c (ix2 o (0 : Fin 1)))

/-- The s-th quarter of the contraction, s = 0 … 3: indices 2048·s … 2048·s + 2047. -/
def quarter (c : Dev nD) (r : Fin 16) (o : Fin 8192) (s : Fin 4) : EReal :=
  ∑ i : Fin 2048, term V c r o ⟨2048 * s.val + i.val, by have := s.isLt; have := i.isLt; omega⟩

/-- A sum over the 8192 contraction indices is the sum of its four quarters. -/
theorem sum_quarters (f : Fin 8192 → EReal) :
    ∑ i : Fin 8192, f i = ∑ s : Fin 4, ∑ i : Fin 2048, f ⟨2048 * s.val + i.val, by have := s.isLt; have := i.isLt; omega⟩ := by
  have e : Fin 4 × Fin 2048 ≃ Fin 8192 := finProdFinEquiv
  rw [← Equiv.sum_comp (finProdFinEquiv : Fin 4 × Fin 2048 ≃ Fin 8192) f, Fintype.sum_prod_type]
  refine Finset.sum_congr rfl fun s _ => Finset.sum_congr rfl fun i _ => congrArg f (Fin.ext ?_)
  show i.val + 2048 * s.val = 2048 * s.val + i.val
  omega

/-- One point's step at (r, j): the accumulator gains the quarter k = t mod 4 of output column o = 1024·(t / 4) + j. -/
theorem step_apply (c : Dev nD) (t : Fin cfg1.N) (acc : Vec Ideal S16x1024 .f32) (r : Fin 16) (j : Fin 1024)
    (o : Fin 8192) (ho : o.val = 1024 * (t.val / 4) + j.val) (s : Fin 4) (hs : s.val = t.val % 4) :
    k1_pay2 (wblk V c t) (ablk V c t) (xblk V c t) acc (ix2 r j) = acc (ix2 r j) + quarter V c r o s := by
  rw [pay2_apply]
  congr 1
  unfold quarter
  refine Finset.sum_congr rfl fun i _ => ?_
  unfold term
  rw [xblk_apply V c t r i ⟨2048 * s.val + i.val, by have := s.isLt; have := i.isLt; omega⟩ (by show 2048 * s.val + i.val = 2048 * (t.val % 4) + i.val; rw [hs]),
    wblk_apply V c t j i o ⟨2048 * s.val + i.val, by have := s.isLt; have := i.isLt; omega⟩ ho (by show 2048 * s.val + i.val = 2048 * (t.val % 4) + i.val; rw [hs]),
    ablk_apply V c t j o ho]

/-- THE ACCUMULATOR at a flushing point t = 4·ob + 3, at (r, j): the whole contraction of output column
    o = 1024·ob + j — zero plus the four quarters the four points of the run added, in order. -/
theorem acc_flush (c : Dev nD) (t : Fin cfg1.N) (h3 : t.val % 4 = 3) (r : Fin 16) (j : Fin 1024) (o : Fin 8192)
    (ho : o.val = 1024 * (t.val / 4) + j.val) :
    acc1 V c t.val t.isLt (ix2 r j) = ∑ i : Fin 8192, term V c r o i := by
  have hN : cfg1.N = 32 := N1
  have hlt := t.isLt
  let t2 : Fin cfg1.N := ⟨t.val - 1, by omega⟩
  let t1 : Fin cfg1.N := ⟨t.val - 2, by omega⟩
  let t0 : Fin cfg1.N := ⟨t.val - 3, by omega⟩
  have a3 := acc1_next V c t (by omega)
  have a2 := acc1_next V c t2 (by show ¬ (t.val - 1) % 4 = 0; omega)
  have a1 := acc1_next V c t1 (by show ¬ (t.val - 2) % 4 = 0; omega)
  have a0 := acc1_first V c t0 (by show (t.val - 3) % 4 = 0; omega)
  rw [a3, step_apply V c t _ r j o ho 3 (by rw [h3]; rfl)]
  have e2 : acc1 V c (t.val - 1) (Nat.lt_of_le_of_lt (Nat.sub_le _ _) t.isLt) = acc1 V c t2.val t2.isLt := rfl
  rw [e2, a2, step_apply V c t2 _ r j o (by show o.val = 1024 * ((t.val - 1) / 4) + j.val; omega) 2 (by show (2 : Fin 4).val = (t.val - 1) % 4; show 2 = _; omega)]
  have e1 : acc1 V c (t2.val - 1) (Nat.lt_of_le_of_lt (Nat.sub_le _ _) t2.isLt) = acc1 V c t1.val t1.isLt := rfl
  rw [e1, a1, step_apply V c t1 _ r j o (by show o.val = 1024 * ((t.val - 2) / 4) + j.val; omega) 1 (by show 1 = (t.val - 2) % 4; omega)]
  have e0 : acc1 V c (t1.val - 1) (Nat.lt_of_le_of_lt (Nat.sub_le _ _) t1.isLt) = acc1 V c t0.val t0.isLt := rfl
  rw [e0, a0, step_apply V c t0 _ r j o (by show o.val = 1024 * ((t.val - 3) / 4) + j.val; omega) 0 (by show 0 = (t.val - 3) % 4; omega)]
  rw [pay1_apply, zero_add, sum_quarters, Fin.sum_univ_four]
  rfl

/-! ## The output array -/

/-- What the output array ends holding at (r, o). -/
def g1 (c : Dev nD) (r : Fin 16) (o : Fin 8192) : EReal :=
  (∑ i : Fin 8192, term V c r o i) + Bi V c (ix2 (0 : Fin 1) o)

/-- The same as contents of the output array. -/
def G1 (c : Dev nD) : Buf (Elt Ideal) ((c : Thread nD τ).loc main_v12) :=
  fun i : S16x8192.Idx => g1 V c ⟨(i 0).val, idx2_lt0 i⟩ ⟨(i 1).val, idx2_lt1 i⟩

/-- The block a flushing point leaves, at (r, j). -/
theorem out1_apply (c : Dev nD) (t : Fin cfg1.N) (h3 : t.val % 4 = 3) (r : Fin 16) (j : Fin 1024) (o : Fin 8192)
    (ho : o.val = 1024 * (t.val / 4) + j.val) : out1 V c t (ix2 r j) = g1 V c r o := by
  unfold out1 g1
  rw [pay3_apply, acc_flush V c t h3 r j o ho, bblk_apply V c t j o ho]

/-- WHAT A FLUSHING POINT WRITES BACK is its block of G1. -/
theorem flushed1_eq (c : Dev nD) (t : Fin cfg1.N) (hf : (cfg1.win 4).flush t = true) :
    (dat1 V c).flushed 4 t = ((cfg1.win 4).blk t).view.read (Elt Ideal) (G1 V c) := by
  have h3 : t.val % 4 = 3 := (flush1_4 t).mp hf
  have hN : cfg1.N = 32 := N1
  have hlt := t.isLt
  obtain ⟨-, -, -, -, -, -, -, -, e0, e1⟩ := idx1 t
  show (cfg1.win 4).cut (grid1.coords t) ((dat1 V c).after 4 t) = _
  rw [after1_4]
  funext y
  have hy0 : (y 0).val < 16 := (y 0).isLt
  have hy1 : (y 1).val < 1024 := (y 1).isLt
  have hy : (cfg1.win 4).xinj (grid1.coords t) y = ix2 (⟨(y 0).val, hy0⟩ : Fin 16) (⟨(y 1).val, hy1⟩ : Fin 1024) :=
    funext fun a => by
      match a with
      | ⟨0, _⟩ => rfl
      | ⟨1, _⟩ => rfl
  show out1 V c t ((cfg1.win 4).xinj (grid1.coords t) y) = G1 V c (((cfg1.win 4).blk t).view.emb y)
  rw [hy, out1_apply V c t h3 ⟨(y 0).val, hy0⟩ ⟨(y 1).val, hy1⟩ ⟨1024 * (t.val / 4) + (y 1).val, by omega⟩ rfl]
  unfold G1
  congr 1
  · apply Fin.ext
    show (y 0).val = win1_4.index t (0 : Fin 2) * 16 + 1 * (y 0).val
    rw [e0]; omega
  · apply Fin.ext
    show 1024 * (t.val / 4) + (y 1).val = win1_4.index t (1 : Fin 2) * 1024 + 1 * (y 1).val
    rw [e1]; omega

/-- Every index of the output array is in the block of the flushing point of its column block. -/
theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have hN : cfg1.N = 32 := N1
  have hi0 : (i 0).val < 16 := (i 0).isLt
  have hi1 : (i 1).val < 8192 := (i 1).isLt
  let t : Fin cfg1.N := ⟨4 * ((i 1).val / 1024) + 3, by omega⟩
  obtain ⟨-, -, -, -, -, -, -, -, e0, e1⟩ := idx1 t
  have ht : t.val = 4 * ((i 1).val / 1024) + 3 := rfl
  refine ⟨t, (flush1_4 t).mpr (by rw [ht]; omega), ?_⟩
  show i ∈ ((View.whole main_v12).slice (win1_4.rect t)).set
  rw [View.set_slice_whole, Rect.mem_set_unit]
  intro a
  match a with
  | ⟨0, _⟩ =>
    show win1_4.index t (0 : Fin 2) * 16 ≤ (i 0).val ∧ (i 0).val < win1_4.index t (0 : Fin 2) * 16 + 16
    rw [e0]; omega
  | ⟨1, _⟩ =>
    show win1_4.index t (1 : Fin 2) * 1024 ≤ (i 1).val ∧ (i 1).val < win1_4.index t (1 : Fin 2) * 1024 + 1024
    rw [e1, ht]; omega

/-- THE VALUE OF REGION 1: the output array ends holding, at (r, o), the contraction of the activations' row r with the
    ternary quantization of weight row o at its scale, plus the bias entry o. -/
theorem region1_value (c : Dev nD) (r : Fin 16) (o : Fin 8192) :
    (dat1 V c).arrAt 4 cfg1.N (ix2 r o)
      = (∑ i : Fin 8192, Xq V c (ix2 r i) * Cert.Spec.tern (Wt V c (ix2 o i)) (Al V c (ix2 o (0 : Fin 1))))
          + Bi V c (ix2 (0 : Fin 1) o) := by
  rw [(dat1 V c).arrAt_eq_of_cover 4 (G1 V c) (flushed1_eq V c) (cover1 c)]
  rfl

end Cert.KernelIdeal.Hand

end
-- ==== Proof.Val.Kernel.lean ====
/-
  The kernel program's result as the specification.  Region 1 is entered with the activations' buffer at the host
  prefix's fake-quantized activations, the weight as launched, the scale column at what region 0 left — the scale of
  every row — and the bias row at the reshaped bias; its final output array, read at (r, o), is then
  Σ_i xq[r,i] · tern (w[o,i]) (alpha w o) + b[o].
-/
import proofs.«178924_j67053029425862_1_alg».proof.Proof.KI.Run
import proofs.«178924_j67053029425862_1_alg».proof.Proof.Val.K0
import proofs.«178924_j67053029425862_1_alg».proof.Proof.Val.K1

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The activations region 1 reads are the host prefix's. -/
theorem entry_xq (c : Dev nD) : Xq (Ve1 m) c = hostXQ (m ((c.tc : Thread nD τ).loc main_arg0)) :=
  (congrFun (V7_eq m c).symm _).trans ((V7_main_v9 m (outs m) c).trans (V5_main_v9 m c))

/-- The weight region 1 reads is the argument. -/
theorem entry_w (c : Dev nD) : Wt (Ve1 m) c = m ((c.tc : Thread nD τ).loc main_arg1) :=
  (congrFun (V7_eq m c).symm _).trans (V7_main_arg1 m (outs m) c)

/-- The scale column region 1 reads is what region 0 left: the scale of every weight row. -/
theorem entry_alpha (c : Dev nD) (o : Fin 8192) :
    Al (Ve1 m) c (ix2 o (0 : Fin 1)) = Cert.Spec.alpha (m ((c.tc : Thread nD τ).loc main_arg1)) o := by
  have h10 : Al (Ve1 m) c = res0 m c :=
    (congrFun (V7_eq m c).symm _).trans ((V7_main_v10 m (outs m) c).trans (by unfold outs; simp only [Function.update_self]))
  rw [h10]
  show (dat0 (Ve0 m) c).arrAt 1 cfg0.N (ix2 o 0) = _
  rw [region0_value (Ve0 m) c o]
  exact congrArg (fun W => Cert.Spec.alpha W o) (V5_main_arg1 m c)

/-- The bias row region 1 reads is the bias. -/
theorem entry_bias (c : Dev nD) (o : Fin 8192) :
    Bi (Ve1 m) c (ix2 (0 : Fin 1) o) = (m ((c.tc : Thread nD τ).loc main_arg2) : FVec Ideal S8192 .f32) (ix1 o) := by
  have h11 : Bi (Ve1 m) c = (V7 m (outs m) c main_v11 : FVec Ideal S1x8192 .f32) := congrFun (V7_eq m c).symm _
  rw [h11]
  exact V7_main_v11 m (outs m) c o

/-- THE KERNEL'S RESULT, at row r and column o. -/
theorem kernel_value (c : Dev nD) (r : Fin 16) (o : Fin 8192) :
    (res1 m c : FVec Ideal S16x8192 .f32) (ix2 r o)
      = Cert.Spec.G (hostXQ (m ((c.tc : Thread nD τ).loc main_arg0))) (m ((c.tc : Thread nD τ).loc main_arg1))
          (m ((c.tc : Thread nD τ).loc main_arg2)) r o := by
  show (dat1 (Ve1 m) c).arrAt 4 cfg1.N (ix2 r o) = _
  rw [region1_value (Ve1 m) c r o, entry_xq, entry_w, entry_alpha, entry_bias]
  rfl

end Cert.KernelIdeal.Hand

end
-- ==== Proof.lean ====
/-
  The proof of `Cert.Claim`: three frames, the (empty) idealization ledger, and the equality of the two idealized programs.

  The kernel program fake-quantizes the activations on the host (scale 127 / max(max|x|, ε), round, clip, divide),
  computes each weight row's scale max(mean|w[o,:]|, ε) in a first pallas_call, and in a second one — grid of 8 column
  blocks × 4 contraction blocks — quantizes each weight block to {−1, 0, 1}·scale, multiplies it with the activations'
  block, accumulates the four partial products of a column block in a scratch buffer, and adds the bias at the last.
  The reference does the same quantizations on whole arrays, but feeds its einsum x + (xq − x) and w + (wq − w).

  At the ideal instance both are  G xq w b r o = Σ_i xq[r,i] · tern (w[o,i]) (alpha w o) + b[o]  of one and the same xq:
  * kernel: the host prefix gives xq; the first region's output array is alpha (row by row, blocks of 256 rows covering
    the 8192); the second region's accumulator after the k-th contraction block holds the sum over the first 2048·(k+1)
    indices, so that the four blocks add up to the sum over all 8192 (sums in a commutative monoid regroup freely), and
    the blocks written at k = 3 cover the result array;
  * reference: a + (b − a) = b on the extended reals once a is a real number, which the precondition (all inputs finite)
    gives for x and w; what is left is the same sum.
  The frames of the two kernel programs: each pallas_call is a pipeline segment over its body's separation-logic triple
  (one triple for the first body; three, by the contraction-block coordinate, for the second, whose scratch accumulator
  is carried by the region invariant), chained with the host stretches; the reference's frame is its run.
-/
import proofs.«178924_j67053029425862_1_alg».proof.Defs
import proofs.«178924_j67053029425862_1_alg».proof.Proof.Gen.Kernel
import proofs.«178924_j67053029425862_1_alg».proof.Proof.Gen.KernelIdeal
import proofs.«178924_j67053029425862_1_alg».proof.Proof.Gen.ReferenceIdeal
import proofs.«178924_j67053029425862_1_alg».proof.Proof.Gen.ReferenceIdeal.Run
import proofs.«178924_j67053029425862_1_alg».proof.Proof.Gen.ReferenceIdeal.Read
import proofs.«178924_j67053029425862_1_alg».proof.Proof.Gen.Pre_finite_inputs
import proofs.«178924_j67053029425862_1_alg».proof.Proof.K.Run
import proofs.«178924_j67053029425862_1_alg».proof.Proof.KI.Run
import proofs.«178924_j67053029425862_1_alg».proof.Proof.Val.Ref
import proofs.«178924_j67053029425862_1_alg».proof.Proof.Val.Kernel
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both idealized programs end with the same array: the kernel's run names its result (region 1's final array), the
    reference's run its composed term; under finite inputs both are `G` of the same quantized activations. -/
theorem algebraic : Cert.algebraic_KernelIdeal_ReferenceIdeal := by
  intro m ρ m' ρ' hpre hagree
  refine ⟨fun c => Cert.KernelIdeal.Hand.res1 m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, -⟩ := Cert.RefValue.finite_of_pre _ _ _ (hpre c)
  rw [(hagree c).1, (hagree c).2.1, (hagree c).2.2, Cert.ReferenceIdeal.Read.val_main_v30_eq]
  funext j
  obtain ⟨r, o, rfl⟩ : ∃ (r : Fin 16) (o : Fin 8192), j = ix2 r o := ⟨j 0, j 1, eq_ix2 j⟩
  rw [Cert.RefValue.ref_value _ _ _ hx hw r o]
  refine ((Cert.KernelIdeal.Hand.kernel_value m c r o).trans ?_).symm
  rw [Cert.KernelIdeal.Hand.hostXQ_eq_ref]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
